-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096 : Shape := ⟨2, ![4, 4096]⟩
abbrev S16x50257 : Shape := ⟨2, ![16, 50257]⟩
abbrev S16x256x128 : Shape := ⟨3, ![16, 256, 128]⟩
abbrev S_ : Shape := ⟨0, ![]⟩

class Facts : Prop where
  bcast_S_S16x256x128 : S_.BroadcastsInDim S16x256x128 (![] : Fin 0 → Fin S16x256x128.rank)
  reducesTo_S16x256x128_S_d0_1_2 : S16x256x128.ReducesTo [0, 1, 2] S_
  h_S_ : 0 < S_.numel
  bcast_S_S4x4096 : S_.BroadcastsInDim S4x4096 (![] : Fin 0 → Fin S4x4096.rank)
  reducesTo_S4x4096_S_d0_1 : S4x4096.ReducesTo [0, 1] S_
  bcast_S_S16x50257 : S_.BroadcastsInDim S16x50257 (![] : Fin 0 → Fin S16x50257.rank)
  reducesTo_S16x50257_S_d0_1 : S16x50257.ReducesTo [0, 1] S_

variable [Facts]

def fn_part1 {F : FTy → Type} [FloatOps F] (main_arg1 : IVec S16x50257 32) (main_v15 : IVec S_ 1) : IVec S_ 1 :=
  let main_c_6 : IVec S_ 32 := constantI S_ 32 256#32
  let main_v16 : IVec S16x50257 32 := broadcastInDim S16x50257 ![] bcast_S_S16x50257 main_c_6
  let main_v17 : IVec S16x50257 1 := cmpi .slt main_arg1 main_v16
  let main_c_7 : IVec S_ 1 := constantI S_ 1 1#1
  let main_v18 : IVec S_ 1 := (fun x v => Host.reduce IntOp.andi x v reducesTo_S16x50257_S_d0_1 h_S_) main_v17 main_c_7
  let main_v19 : IVec S_ 1 := andi main_v15 main_v18
  main_v19

def fn {F : FTy → Type} [FloatOps F] (main_arg0 : IVec S4x4096 32) (main_arg1 : IVec S16x50257 32) (main_arg2 : FVec F S16x256x128 .f32) : IVec S_ 1 :=
  let main_v0 : FVec F S16x256x128 .f32 := Host.absf main_arg2
  let main_cst : FVec F S_ .f32 := constant S_ .f32 0x7F800000#32
  let main_v1 : FVec F S16x256x128 .f32 := broadcastInDim S16x256x128 ![] bcast_S_S16x256x128 main_cst
  let main_v2 : IVec S16x256x128 1 := cmpf .olt main_v0 main_v1
  let main_c : IVec S_ 1 := constantI S_ 1 1#1
  let main_v3 : IVec S_ 1 := (fun x v => Host.reduce IntOp.andi x v reducesTo_S16x256x128_S_d0_1_2 h_S_) main_v2 main_c
  let main_c_0 : IVec S_ 32 := constantI S_ 32 0#32
  let main_v4 : IVec S4x4096 32 := broadcastInDim S4x4096 ![] bcast_S_S4x4096 main_c_0
  let main_v5 : IVec S4x4096 1 := cmpi .sge main_arg0 main_v4
  let main_c_1 : IVec S_ 1 := constantI S_ 1 1#1
  let main_v6 : IVec S_ 1 := (fun x v => Host.reduce IntOp.andi x v reducesTo_S4x4096_S_d0_1 h_S_) main_v5 main_c_1
  let main_v7 : IVec S_ 1 := andi main_v3 main_v6
  let main_c_2 : IVec S_ 32 := constantI S_ 32 50257#32
  let main_v8 : IVec S4x4096 32 := broadcastInDim S4x4096 ![] bcast_S_S4x4096 main_c_2
  let main_v9 : IVec S4x4096 1 := cmpi .slt main_arg0 main_v8
  let main_c_3 : IVec S_ 1 := constantI S_ 1 1#1
  let main_v10 : IVec S_ 1 := (fun x v => Host.reduce IntOp.andi x v reducesTo_S4x4096_S_d0_1 h_S_) main_v9 main_c_3
  let main_v11 : IVec S_ 1 := andi main_v7 main_v10
  let main_c_4 : IVec S_ 32 := constantI S_ 32 0#32
  let main_v12 : IVec S16x50257 32 := broadcastInDim S16x50257 ![] bcast_S_S16x50257 main_c_4
  let main_v13 : IVec S16x50257 1 := cmpi .sge main_arg1 main_v12
  let main_c_5 : IVec S_ 1 := constantI S_ 1 1#1
  let main_v14 : IVec S_ 1 := (fun x v => Host.reduce IntOp.andi x v reducesTo_S16x50257_S_d0_1 h_S_) main_v13 main_c_5
  let main_v15 : IVec S_ 1 := andi main_v11 main_v14
  fn_part1 (F := F) main_arg1 main_v15
-- ==== Kernel.lean ====
abbrev S4x4096 : Shape := ⟨2, ![4, 4096]⟩
abbrev S16x50257 : Shape := ⟨2, ![16, 50257]⟩
abbrev S16x256x128 : Shape := ⟨3, ![16, 256, 128]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16x16384 : Shape := ⟨2, ![16, 16384]⟩
abbrev S16384x2048 : Shape := ⟨2, ![16384, 2048]⟩
abbrev S16x1024 : Shape := ⟨2, ![16, 1024]⟩
abbrev S1024x2048 : Shape := ⟨2, ![1024, 2048]⟩
abbrev S1024x256 : Shape := ⟨2, ![1024, 256]⟩
abbrev S1x1024 : Shape := ⟨2, ![1, 1024]⟩
abbrev S1024 : Shape := ⟨1, ![1024]⟩
abbrev S1024x1 : Shape := ⟨2, ![1024, 1]⟩
abbrev S1x256x128 : Shape := ⟨3, ![1, 256, 128]⟩
abbrev S256x128 : Shape := ⟨2, ![256, 128]⟩
abbrev S1024x128 : Shape := ⟨2, ![1024, 128]⟩
abbrev S4x4096x2048 : Shape := ⟨3, ![4, 4096, 2048]⟩

abbrev nBuf : Space → Nat
  | .hbm => 29
  | .vmem => 5
  | .smem => 0
  | _ => 0

abbrev bufTy : (tb : Table) → Fin (tcTables nBuf tb) → BufTy
  | .hbm, ⟨0, _⟩ => ⟨S4x4096, .i32⟩
  | .hbm, ⟨1, _⟩ => ⟨S16x50257, .i32⟩
  | .hbm, ⟨2, _⟩ => ⟨S16x256x128, .f32⟩
  | .hbm, ⟨3, _⟩ => ⟨S16384, .i32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16x16384, .i32⟩
  | .hbm, ⟨23, _⟩ => ⟨S16x16384, .i1⟩
  | .hbm, ⟨24, _⟩ => ⟨S_, .i32⟩
  | .hbm, ⟨25, _⟩ => ⟨S16x16384, .i32⟩
  | .hbm, ⟨26, _⟩ => ⟨S16x16384, .i32⟩
  | .hbm, ⟨27, _⟩ => ⟨S16384x2048, .f32⟩
  | .hbm, ⟨28, _⟩ => ⟨S4x4096x2048, .f32⟩
  | .local _ .vmem, ⟨0, _⟩ => ⟨S16x1024, .i32⟩
  | .local _ .vmem, ⟨1, _⟩ => ⟨S16x1024, .i32⟩
  | .local _ .vmem, ⟨2, _⟩ => ⟨S16x256x128, .f32⟩
  | .local _ .vmem, ⟨3, _⟩ => ⟨S1024x2048, .f32⟩
  | .local _ .vmem, ⟨4, _⟩ => ⟨S1024x2048, .f32⟩
  | _, _ => ⟨S4x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_c_4 : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096_S16384 : S4x4096.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16x16384_1 : S16384.BroadcastsInDim S16x16384 (![1] : Fin 1 → Fin S16x16384.rank)
  bcast_S_S16x16384 : S_.BroadcastsInDim S16x16384 (![] : Fin 0 → Fin S16x16384.rank)
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  iota_S1024x256_d1_w32 : S1024x256.Iotas .tc 32 [1]
  slices_S16x1024_o0_0_S1x1024 : S16x1024.Slices ![0, 0] S1x1024
  shapeCasts_S1x1024_S1024 : S1x1024.ShapeCasts S1024
  shapeCasts_S1024_S1024x1 : S1024.ShapeCasts S1024x1
  broadcasts_S1024x1_S1024x256 : S1024x1.Broadcasts S1024x256
  natLt_1_32 : 1 < 32
  inb_S16x256x128_S1x256x128_0_0_0 : ∀ a, (![0, 0, 0] : Fin 3 → Nat) a + S1x256x128.size a ≤ S16x256x128.size a
  h_S1x256x128 : 0 < S1x256x128.numel
  shapeCasts_S1x256x128_S256x128 : S1x256x128.ShapeCasts S256x128
  slices_S16x1024_o1_0_S1x1024 : S16x1024.Slices ![1, 0] S1x1024
  inb_S16x256x128_S1x256x128_1_0_0 : ∀ a, (![1, 0, 0] : Fin 3 → Nat) a + S1x256x128.size a ≤ S16x256x128.size a
  slices_S16x1024_o2_0_S1x1024 : S16x1024.Slices ![2, 0] S1x1024
  inb_S16x256x128_S1x256x128_2_0_0 : ∀ a, (![2, 0, 0] : Fin 3 → Nat) a + S1x256x128.size a ≤ S16x256x128.size a
  slices_S16x1024_o3_0_S1x1024 : S16x1024.Slices ![3, 0] S1x1024
  inb_S16x256x128_S1x256x128_3_0_0 : ∀ a, (![3, 0, 0] : Fin 3 → Nat) a + S1x256x128.size a ≤ S16x256x128.size a
  slices_S16x1024_o4_0_S1x1024 : S16x1024.Slices ![4, 0] S1x1024
  inb_S16x256x128_S1x256x128_4_0_0 : ∀ a, (![4, 0, 0] : Fin 3 → Nat) a + S1x256x128.size a ≤ S16x256x128.size a
  slices_S16x1024_o5_0_S1x1024 : S16x1024.Slices ![5, 0] S1x1024
  inb_S16x256x128_S1x256x128_5_0_0 : ∀ a, (![5, 0, 0] : Fin 3 → Nat) a + S1x256x128.size a ≤ S16x256x128.size a
  slices_S16x1024_o6_0_S1x1024 : S16x1024.Slices ![6, 0] S1x1024
  inb_S16x256x128_S1x256x128_6_0_0 : ∀ a, (![6, 0, 0] : Fin 3 → Nat) a + S1x256x128.size a ≤ S16x256x128.size a
  slices_S16x1024_o7_0_S1x1024 : S16x1024.Slices ![7, 0] S1x1024
  inb_S16x256x128_S1x256x128_7_0_0 : ∀ a, (![7, 0, 0] : Fin 3 → Nat) a + S1x256x128.size a ≤ S16x256x128.size a
  slices_S16x1024_o8_0_S1x1024 : S16x1024.Slices ![8, 0] S1x1024
  inb_S16x256x128_S1x256x128_8_0_0 : ∀ a, (![8, 0, 0] : Fin 3 → Nat) a + S1x256x128.size a ≤ S16x256x128.size a
  slices_S16x1024_o9_0_S1x1024 : S16x1024.Slices ![9, 0] S1x1024
  inb_S16x256x128_S1x256x128_9_0_0 : ∀ a, (![9, 0, 0] : Fin 3 → Nat) a + S1x256x128.size a ≤ S16x256x128.size a
  slices_S16x1024_o10_0_S1x1024 : S16x1024.Slices ![10, 0] S1x1024
  inb_S16x256x128_S1x256x128_10_0_0 : ∀ a, (![10, 0, 0] : Fin 3 → Nat) a + S1x256x128.size a ≤ S16x256x128.size a
  slices_S16x1024_o11_0_S1x1024 : S16x1024.Slices ![11, 0] S1x1024
  inb_S16x256x128_S1x256x128_11_0_0 : ∀ a, (![11, 0, 0] : Fin 3 → Nat) a + S1x256x128.size a ≤ S16x256x128.size a
  slices_S16x1024_o12_0_S1x1024 : S16x1024.Slices ![12, 0] S1x1024
  inb_S16x256x128_S1x256x128_12_0_0 : ∀ a, (![12, 0, 0] : Fin 3 → Nat) a + S1x256x128.size a ≤ S16x256x128.size a
  slices_S16x1024_o13_0_S1x1024 : S16x1024.Slices ![13, 0] S1x1024
  inb_S16x256x128_S1x256x128_13_0_0 : ∀ a, (![13, 0, 0] : Fin 3 → Nat) a + S1x256x128.size a ≤ S16x256x128.size a
  slices_S16x1024_o14_0_S1x1024 : S16x1024.Slices ![14, 0] S1x1024
  inb_S16x256x128_S1x256x128_14_0_0 : ∀ a, (![14, 0, 0] : Fin 3 → Nat) a + S1x256x128.size a ≤ S16x256x128.size a
  slices_S16x1024_o15_0_S1x1024 : S16x1024.Slices ![15, 0] S1x1024
  inb_S16x256x128_S1x256x128_15_0_0 : ∀ a, (![15, 0, 0] : Fin 3 → Nat) a + S1x256x128.size a ≤ S16x256x128.size a
  concatenates_S1024x128_S1024x128_S1024x128_S1024x128_S1024x128_S1024x128_S1024x128_S1024x128_S1024x128_S1024x128_S1024x128_S1024x128_S1024x128_S1024x128_S1024x128_S1024x128_S1024x2048_d1 : Shape.Concatenates [S1024x128, S1024x128, S1024x128, S1024x128, S1024x128, S1024x128, S1024x128, S1024x128, S1024x128, S1024x128, S1024x128, S1024x128, S1024x128, S1024x128, S1024x128, S1024x128] S1024x2048 1
  inb_S1024x2048_S1024x2048_0_0 : ∀ a, (![0, 0] : Fin 2 → Nat) a + S1024x2048.size a ≤ S1024x2048.size a
  h_S1024x2048 : 0 < S1024x2048.numel
  shapeCasts_S16384x2048_S4x4096x2048 : S16384x2048.ShapeCasts S4x4096x2048
  gather_S16x50257_S16384x1_S16x16384_0_1_n_n_1_1_161_wf : GatherDims.WF S16x50257 S16384x1 S16x16384 [0] [1] [] [1] [] 1 ![16, 1]
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024.size a ≤ S16x16384.size a
  hwx0_0 : ∀ i : grid0.Coords, EltTy.bits .i32 = 32 ∨ (Rect.block (s := S16x16384) S16x1024.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256x128.size a ≤ S16x256x128.size a
  hwx0_1 : ∀ i : grid0.Coords, EltTy.bits .f32 = 32 ∨ (Rect.block (s := S16x256x128) S16x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S16384x2048.size a
  hwx0_2 : ∀ i : grid0.Coords, EltTy.bits .f32 = 32 ∨ (Rect.block (s := S16384x2048) S1024x2048.size (cc0_transform_2 i) (hinb0_2 i)).WholeWords (EltTy.packing .f32)

variable [Facts₀]

def gather_S16x50257_S16384x1_S16x16384_0_1_n_n_1_1_161 : GatherDims S16x50257 S16384x1 S16x16384 where
  offsetDims := [0]
  collapsedSliceDims := [1]
  operandBatchingDims := []
  startIndicesBatchingDims := []
  startIndexMap := [1]
  indexVectorDim := 1
  sliceSizes := ![16, 1]
  wf := gather_S16x50257_S16384x1_S16x16384_0_1_n_n_1_1_161_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_v1) S16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096 : Shape := ⟨2, ![4, 4096]⟩
abbrev S16x50257 : Shape := ⟨2, ![16, 50257]⟩
abbrev S16x256x128 : Shape := ⟨3, ![16, 256, 128]⟩
abbrev S16x50257x1 : Shape := ⟨3, ![16, 50257, 1]⟩
abbrev S_ : Shape := ⟨0, ![]⟩
abbrev S1 : Shape := ⟨1, ![1]⟩
abbrev S1x1x1 : Shape := ⟨3, ![1, 1, 1]⟩
abbrev S16x50257x128 : Shape := ⟨3, ![16, 50257, 128]⟩
abbrev S50257x16x128 : Shape := ⟨3, ![50257, 16, 128]⟩
abbrev S50257x2048 : Shape := ⟨2, ![50257, 2048]⟩
abbrev S4x4096x1 : Shape := ⟨3, ![4, 4096, 1]⟩
abbrev S4x4096x2048 : Shape := ⟨3, ![4, 4096, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S16x50257, .i32⟩
  | .hbm, ⟨2, _⟩ => ⟨S16x256x128, .f32⟩
  | .hbm, ⟨3, _⟩ => ⟨S16x50257x1, .i32⟩
  | .hbm, ⟨4, _⟩ => ⟨S_, .i32⟩
  | .hbm, ⟨5, _⟩ => ⟨S16x50257x1, .i32⟩
  | .hbm, ⟨6, _⟩ => ⟨S16x50257x1, .i1⟩
  | .hbm, ⟨7, _⟩ => ⟨S_, .i32⟩
  | .hbm, ⟨8, _⟩ => ⟨S16x50257x1, .i32⟩
  | .hbm, ⟨9, _⟩ => ⟨S16x50257x1, .i32⟩
  | .hbm, ⟨10, _⟩ => ⟨S16x50257x1, .i32⟩
  | .hbm, ⟨11, _⟩ => ⟨S1, .i32⟩
  | .hbm, ⟨12, _⟩ => ⟨S_, .i32⟩
  | .hbm, ⟨13, _⟩ => ⟨S16x50257x1, .i32⟩
  | .hbm, ⟨14, _⟩ => ⟨S16x50257x1, .i1⟩
  | .hbm, ⟨15, _⟩ => ⟨S1x1x1, .i32⟩
  | .hbm, ⟨16, _⟩ => ⟨S16x50257x1, .i32⟩
  | .hbm, ⟨17, _⟩ => ⟨S16x50257x1, .i1⟩
  | .hbm, ⟨18, _⟩ => ⟨S16x50257x1, .i1⟩
  | .hbm, ⟨19, _⟩ => ⟨S_, .i1⟩
  | .hbm, ⟨20, _⟩ => ⟨S16x50257, .i1⟩
  | .hbm, ⟨21, _⟩ => ⟨S16x50257x128, .f32⟩
  | .hbm, ⟨22, _⟩ => ⟨S16x50257x128, .i1⟩
  | .hbm, ⟨23, _⟩ => ⟨S_, .f32⟩
  | .hbm, ⟨24, _⟩ => ⟨S16x50257x128, .f32⟩
  | .hbm, ⟨25, _⟩ => ⟨S16x50257x128, .f32⟩
  | .hbm, ⟨26, _⟩ => ⟨S50257x16x128, .f32⟩
  | .hbm, ⟨27, _⟩ => ⟨S50257x2048, .f32⟩
  | .hbm, ⟨28, _⟩ => ⟨S_, .i32⟩
  | .hbm, ⟨29, _⟩ => ⟨S4x4096, .i32⟩
  | .hbm, ⟨30, _⟩ => ⟨S4x4096, .i1⟩
  | .hbm, ⟨31, _⟩ => ⟨S_, .i32⟩
  | .hbm, ⟨32, _⟩ => ⟨S4x4096, .i32⟩
  | .hbm, ⟨33, _⟩ => ⟨S4x4096, .i32⟩
  | .hbm, ⟨34, _⟩ => ⟨S4x4096, .i32⟩
  | .hbm, ⟨35, _⟩ => ⟨S4x4096x1, .i32⟩
  | .hbm, ⟨36, _⟩ => ⟨S1, .i32⟩
  | .hbm, ⟨37, _⟩ => ⟨S_, .i32⟩
  | .hbm, ⟨38, _⟩ => ⟨S4x4096x1, .i32⟩
  | .hbm, ⟨39, _⟩ => ⟨S4x4096x1, .i1⟩
  | .hbm, ⟨40, _⟩ => ⟨S1x1x1, .i32⟩
  | .hbm, ⟨41, _⟩ => ⟨S4x4096x1, .i32⟩
  | .hbm, ⟨42, _⟩ => ⟨S4x4096x1, .i1⟩
  | .hbm, ⟨43, _⟩ => ⟨S4x4096x1, .i1⟩
  | .hbm, ⟨44, _⟩ => ⟨S_, .i1⟩
  | .hbm, ⟨45, _⟩ => ⟨S4x4096, .i1⟩
  | .hbm, ⟨46, _⟩ => ⟨S4x4096x2048, .f32⟩
  | .hbm, ⟨47, _⟩ => ⟨S4x4096x2048, .i1⟩
  | .hbm, ⟨48, _⟩ => ⟨S_, .f32⟩
  | .hbm, ⟨49, _⟩ => ⟨S4x4096x2048, .f32⟩
  | .hbm, ⟨50, _⟩ => ⟨S4x4096x2048, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_c_2 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_c_3 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v4 : Ref sig .tc := ⟨.hbm, 50, rfl⟩

abbrev nD : Nat := 1
abbrev τ : Topo := Topo.v7x

variable {F : FTy → Type} [FloatOps F]

class Facts₀ : Prop where
  bcast_S16x50257_S16x50257x1_0_1 : S16x50257.BroadcastsInDim S16x50257x1 (![0, 1] : Fin 2 → Fin S16x50257x1.rank)
  bcast_S_S16x50257x1 : S_.BroadcastsInDim S16x50257x1 (![] : Fin 0 → Fin S16x50257x1.rank)
  bcast_S1_S1x1x1_2 : S1.BroadcastsInDim S1x1x1 (![2] : Fin 1 → Fin S1x1x1.rank)
  bcast_S1x1x1_S16x50257x1_0_1_2 : S1x1x1.BroadcastsInDim S16x50257x1 (![0, 1, 2] : Fin 3 → Fin S16x50257x1.rank)
  reducesTo_S16x50257x1_S16x50257_d2 : S16x50257x1.ReducesTo [2] S16x50257
  h_S_ : 0 < S_.numel
  bcast_S16x50257_S16x50257x128_0_1 : S16x50257.BroadcastsInDim S16x50257x128 (![0, 1] : Fin 2 → Fin S16x50257x128.rank)
  bcast_S_S16x50257x128 : S_.BroadcastsInDim S16x50257x128 (![] : Fin 0 → Fin S16x50257x128.rank)
  transposes_S16x50257x128_S50257x16x128_1_0_2 : S16x50257x128.Transposes [1, 0, 2] S50257x16x128
  shapeCasts_S50257x16x128_S50257x2048 : S50257x16x128.ShapeCasts S50257x2048
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S1x1x1_S4x4096x1_0_1_2 : S1x1x1.BroadcastsInDim S4x4096x1 (![0, 1, 2] : Fin 3 → Fin S4x4096x1.rank)
  reducesTo_S4x4096x1_S4x4096_d2 : S4x4096x1.ReducesTo [2] S4x4096
  bcast_S4x4096_S4x4096x2048_0_1 : S4x4096.BroadcastsInDim S4x4096x2048 (![0, 1] : Fin 2 → Fin S4x4096x2048.rank)
  bcast_S_S4x4096x2048 : S_.BroadcastsInDim S4x4096x2048 (![] : Fin 0 → Fin S4x4096x2048.rank)
  gather_S16x256x128_S16x50257x1_S16x50257x128_2_1_0_0_1_2_11128_wf : GatherDims.WF S16x256x128 S16x50257x1 S16x50257x128 [2] [1] [0] [1] [0] 2 ![1, 1, 128]
  gather_S50257x2048_S4x4096x1_S4x4096x2048_2_0_n_n_0_2_12048_wf : GatherDims.WF S50257x2048 S4x4096x1 S4x4096x2048 [2] [0] [] [0] [] 2 ![1, 2048]

variable [Facts₀]

def gather_S16x256x128_S16x50257x1_S16x50257x128_2_1_0_0_1_2_11128 : GatherDims S16x256x128 S16x50257x1 S16x50257x128 where
  offsetDims := [2]
  collapsedSliceDims := [1]
  operandBatchingDims := [0]
  startIndicesBatchingDims := [0]
  startIndexMap := [1]
  indexVectorDim := 2
  sliceSizes := ![1, 1, 128]
  wf := gather_S16x256x128_S16x50257x1_S16x50257x128_2_1_0_0_1_2_11128_wf
def gather_S50257x2048_S4x4096x1_S4x4096x2048_2_0_n_n_0_2_12048 : GatherDims S50257x2048 S4x4096x1 S4x4096x2048 where
  offsetDims := [2]
  collapsedSliceDims := [0]
  operandBatchingDims := []
  startIndicesBatchingDims := []
  startIndexMap := [0]
  indexVectorDim := 2
  sliceSizes := ![1, 2048]
  wf := gather_S50257x2048_S4x4096x1_S4x4096x2048_2_0_n_n_0_2_12048_wf

class Facts : Prop extends Facts₀ where

variable [Facts]
-- ==== Proof.Spec.lean ====
/-
  What both programs compute, as one function of the three argument arrays.

  A token t = tok[b, s] names a row of the code table; for each of the sixteen codebooks h the code
  code[h, t] names one of that codebook's 256 entries, a vector of 128 reals. The embedding of position
  (b, s) is the sixteen chosen vectors laid side by side: column h·128 + d holds book[h, code[h, t], d].
  The words are read unsigned and reduced modulo the extent they index, so the function is total; on
  the domain `InRange` (tokens below 50257, codes below 256) the reduction is the identity.
-/
import Idealize.ShloMosaic.PureOps.Ideal
import Idealize.ShloMosaic.Lib.ValueIdx

namespace Cert.Spec

open Idealize.ShloMosaic Idealize.ShloMosaic.ValueIdx

/-- The token array [4, 4096], the code table [16, 50257], the codebooks [16, 256, 128], the result [4, 4096, 2048]. -/
abbrev STok : Shape := ⟨2, ![4, 4096]⟩
abbrev SCode : Shape := ⟨2, ![16, 50257]⟩
abbrev SBook : Shape := ⟨3, ![16, 256, 128]⟩
abbrev SOut : Shape := ⟨3, ![4, 4096, 2048]⟩

/-- The evident domain: every token names a row of the code table, every code an entry of a codebook. -/
def InRange (tok : IVec STok 32) (code : IVec SCode 32) : Prop :=
  (∀ i, (tok i).toNat < 50257) ∧ (∀ j, (code j).toNat < 256)

/-- The token at position (b, s), as a row of the code table. -/
def tokenAt (tok : IVec STok 32) (b : Fin 4) (s : Fin 4096) : Fin 50257 :=
  ⟨(tok (ix2 b s)).toNat % 50257, Nat.mod_lt _ (by norm_num)⟩

/-- Codebook h's code for row t of the code table, as an entry of the codebook. -/
def codeAt (code : IVec SCode 32) (h : Fin 16) (t : Fin 50257) : Fin 256 :=
  ⟨(code (ix2 h t)).toNat % 256, Nat.mod_lt _ (by norm_num)⟩

/-- The codebook a result column belongs to, and the column's place inside that codebook's vector. -/
def headOf (col : Fin 2048) : Fin 16 := ⟨col.val / 128, by omega⟩
def laneOf (col : Fin 2048) : Fin 128 := ⟨col.val % 128, Nat.mod_lt _ (by norm_num)⟩

/-- The embedding at position (b, s), column col. -/
def embedAt {α : Type} (tok : IVec STok 32) (code : IVec SCode 32) (book : SBook.Idx → α)
    (b : Fin 4) (s : Fin 4096) (col : Fin 2048) : α :=
  book (ix3 (headOf col) (codeAt code (headOf col) (tokenAt tok b s)) (laneOf col))

/-- The embedding as an array over [4, 4096, 2048]. -/
def embed {α : Type} (tok : IVec STok 32) (code : IVec SCode 32) (book : SBook.Idx → α) : SOut.Idx → α :=
  fun j => embedAt tok code book (j 0) (j 1) (j 2)

theorem embed_ix3 {α : Type} (tok : IVec STok 32) (code : IVec SCode 32) (book : SBook.Idx → α)
    (b : Fin 4) (s : Fin 4096) (col : Fin 2048) : embed tok code book (ix3 b s col) = embedAt tok code book b s col := rfl

end Cert.Spec
-- ==== Proof.PreFacts.lean ====
/-
  The precondition read as facts about the integer inputs: every token is a row of the code table and every
  code is an entry of a codebook.
-/
import proofs.«416922_j3255585210640_2_alg».proof.Pre_finite_inputs
import proofs.«416922_j3255585210640_2_alg».proof.Proof.Spec
import Idealize.ShloMosaic.Lib.ReduceAll
import Idealize.ShloMosaic.Lib.StableHlo.Predicate

namespace Cert.PreFacts

open Idealize.ShloMosaic

/-- A 32-bit word that is not negative has its top bit clear, so its signed and unsigned readings agree; if it is
    moreover below a bound n < 2³¹ read signed, it is below n read unsigned. -/
theorem toNat_lt_of_signed {w : BitVec 32} {n : Nat} (hn : n < 2 ^ 31)
    (h0 : IntOp.cmpi .sge w 0#32 = 1#1) (h1 : IntOp.cmpi .slt w (BitVec.ofNat 32 n) = 1#1) : w.toNat < n := by
  have hw : w.toNat < 2 ^ 31 := by
    rw [IntOp.cmpi_sge, show (0#32 : BitVec 32).toInt = 0 from by decide, BitVec.toInt_pos_iff] at h0
    omega
  have hb : (BitVec.ofNat 32 n).toNat = n := by rw [BitVec.toNat_ofNat]; omega
  have hlt := (StableHlo.Predicate.slt_iff_toNat hw (by rw [hb]; exact hn)).1 h1
  rwa [hb] at hlt

/-- Where the printed precondition is all ones, the tokens are below 50257 and the codes below 256 (read unsigned:
    the precondition also says they are not negative). -/
theorem inRange_of_pre [Cert.Pre_finite_inputs.Facts] {F : FTy → Type} [FloatOps F]
    (tok : IVec Cert.Spec.STok 32) (code : IVec Cert.Spec.SCode 32) (book : FVec F Cert.Spec.SBook .f32)
    (h : Cert.Pre_finite_inputs.fn (F := F) tok code book = fun _ => 1#1) : Cert.Spec.InRange tok code := by
  -- the precondition's one word is the conjunction of five words, each the conjunction of a comparison over a whole array
  have e := congrFun h ValueIdx.ix0
  dsimp only [Cert.Pre_finite_inputs.fn, Cert.Pre_finite_inputs.fn_part1, andi] at e
  simp only [IntOp.andi_eq_one] at e
  obtain ⟨⟨⟨⟨-, ht0⟩, ht1⟩, hc0⟩, hc1⟩ := e
  have hS := Cert.Pre_finite_inputs.Facts.h_S_
  refine ⟨fun i => ?_, fun j => ?_⟩
  · -- token i: not negative, and below 50257 read signed
    have a0 := Host.reduce_andi_eq_one _ _ _ _ _ ht0 i (funext fun d => d.elim0)
    have a1 := Host.reduce_andi_eq_one _ _ _ _ _ ht1 i (funext fun d => d.elim0)
    simp only [cmpi, StableHlo.Predicate.bcast_scalar _ hS, constantI] at a0 a1
    exact toNat_lt_of_signed (by norm_num) a0 a1
  · -- code j: not negative, and below 256 read signed
    have a0 := Host.reduce_andi_eq_one _ _ _ _ _ hc0 j (funext fun d => d.elim0)
    have a1 := Host.reduce_andi_eq_one _ _ _ _ _ hc1 j (funext fun d => d.elim0)
    simp only [cmpi, StableHlo.Predicate.bcast_scalar _ hS, constantI] at a0 a1
    exact toNat_lt_of_signed (by norm_num) a0 a1

end Cert.PreFacts
-- ==== Proof.LibPlainDot.lean ====
/-
  A plain matrix product read at an index, generic in the sizes. For dimension numbers that contract the left
  operand's columns with the right operand's rows, with no batch axis (rows × contraction times contraction ×
  columns), the sum over the contraction shape's indices of the operands' products at the dot's operand indices is the
  sum over k < K of l[p, k] · r[k, q]. A kernel's matrix unit into a zero accumulator and the host's dot both read
  through it at the ideal values. Imports only the library.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : Nat} (D : DotDims ⟨2, ![M, K]⟩ ⟨2, ![K, N]⟩ ⟨2, ![M, N]⟩)

/-- Two spellings of one axis position read the same coordinate. -/
theorem coord_val_congr {s : Shape} (j : s.Idx) (p q : Nat) (hp : p < s.rank) (hq : q < s.rank) (h : p = q) :
    (j ⟨p, hp⟩).val = (j ⟨q, hq⟩).val := by subst h; rfl

/-- The left operand's row is the result's row: axis 0 is the left operand's one free axis, first among the result's. -/
theorem lhs_row (hlb : D.lhsBatch = []) (hln : D.lhsNonContracting = [0]) (p : Fin M) (q : Fin N) (k : D.contr.Idx) :
    (D.lhsIdx (ix2 p q) k 0).val = p.val := by
  unfold DotDims.lhsIdx
  rw [dif_neg (by rw [hlb]; exact List.not_mem_nil), dif_pos (by rw [hln]; exact List.mem_singleton.mpr rfl)]
  simp only [Fin.val_cast]
  exact coord_val_congr (ix2 p q) _ 0 _ (show 0 < 2 by omega) (by simp [hlb, hln])

/-- The right operand's column is the result's column: axis 1 is the right operand's one free axis, second among the result's. -/
theorem rhs_col (hlb : D.lhsBatch = []) (hrb : D.rhsBatch = []) (hln : D.lhsNonContracting = [0]) (hrn : D.rhsNonContracting = [1])
    (p : Fin M) (q : Fin N) (k : D.contr.Idx) : (D.rhsIdx (ix2 p q) k 1).val = q.val := by
  unfold DotDims.rhsIdx
  rw [dif_neg (by rw [hrb]; exact List.not_mem_nil), dif_pos (by rw [hrn]; exact List.mem_singleton.mpr rfl)]
  simp only [Fin.val_cast]
  exact coord_val_congr (ix2 p q) _ 1 _ (show 1 < 2 by omega) (by simp [hlb, hln, hrn])

/-- The product at result index (p, q): the contraction re-indexed by its one coordinate. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  have hr : D.contr.rank = 1 := by rw [D.rank_contr, hlc]; rfl
  have hs : D.contr.size ⟨0, by omega⟩ = K := by
    have h := D.size_contr 0 (by rw [hlc]; exact Nat.one_pos)
    rw [h]; simp [hlc]
  rw [← Equiv.sum_comp (contrEquiv1 D K hr hs).symm]
  refine Finset.sum_congr rfl fun k _ => ?_
  have hk := contrEquiv1_symm_val D K hr hs k
  have e1 : D.lhsIdx (ix2 p q) ((contrEquiv1 D K hr hs).symm k) = ix2 p k := by
    funext a
    match a with
    | ⟨0, _⟩ => exact Fin.ext (lhs_row D hlb hln p q _)
    | ⟨1, _⟩ => exact Fin.ext ((D.lhsIdx_val_of_single hlc (ix2 p q) _).trans hk)
  have e2 : D.rhsIdx (ix2 p q) ((contrEquiv1 D K hr hs).symm k) = ix2 k q := by
    funext a
    match a with
    | ⟨0, _⟩ => exact Fin.ext ((D.rhsIdx_val_of_single hrc (ix2 p q) _).trans hk)
    | ⟨1, _⟩ => exact Fin.ext (rhs_col D hlb hrb hln hrn p q _)
  rw [e1, e2]

/-- The matrix product as a function of the result index: entry (p, q) is ∑_k l[p, k] · r[k, q] on the extended reals. -/
def matProd (l : (⟨2, ![M, K]⟩ : Shape).Idx → EReal) (r : (⟨2, ![K, N]⟩ : Shape).Idx → EReal) :
    (⟨2, ![M, N]⟩ : Shape).Idx → EReal :=
  fun y => ∑ k : Fin K, l (ix2 (y 0) k) * r (ix2 k (y 1))

theorem matProd_ix2 (l : (⟨2, ![M, K]⟩ : Shape).Idx → EReal) (r : (⟨2, ![K, N]⟩ : Shape).Idx → EReal) (p : Fin M) (q : Fin N) :
    matProd l r (ix2 p q) = ∑ k : Fin K, l (ix2 p k) * r (ix2 k q) := rfl

/-- The matrix unit's product into the zero accumulator, at the ideal values, is the matrix product. -/
theorem matmul_zero_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = matProd (M := M) (K := K) (N := N) l r := by
  funext y
  obtain ⟨p, q, rfl⟩ : ∃ (p : Fin M) (q : Fin N), y = ix2 p q := ⟨y 0, y 1, eq_ix2 y⟩
  rw [Ideal.matmul_constant_zero_apply, matProd_ix2]
  exact sum_plain D hlc hrc hln hrn hlb hrb l r p q

/-- The host's dot, at the ideal values, is the matrix product, whatever its precision and schedule keys. -/
theorem dotGeneral_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision) (sched : HostSchedule)
    (l : FVec Ideal ⟨2, ![M, K]⟩ φ₁) (r : FVec Ideal ⟨2, ![K, N]⟩ φ₂) :
    FloatOps.dotGeneral D prec sched l r = matProd (M := M) (K := K) (N := N) l r := by
  funext y
  obtain ⟨p, q, rfl⟩ : ∃ (p : Fin M) (q : Fin N), y = ix2 p q := ⟨y 0, y 1, eq_ix2 y⟩
  rw [Ideal.dotGeneral_apply, matProd_ix2]
  exact sum_plain D hlc hrc hln hrn hlb hrb l r p q

end Cert.LibPlainDot

end
-- ==== Proof.KerBody.lean ====
/-
  What one grid step of the kernel leaves in its output block, entry by entry: the block [1024, 2048] is sixteen
  [1024, 128] products side by side; product h multiplies the one-hot rows of the codes' row h against codebook
  h, so its entry (r, d) is the codebook's entry at the code, book[h, codes[h, r], d], when that code is below 256.
-/
import proofs.«416922_j3255585210640_2_alg».proof.Proof.Gen.KernelIdeal.Frame
import proofs.«416922_j3255585210640_2_alg».proof.Proof.Spec
import proofs.«416922_j3255585210640_2_alg».proof.Proof.LibPlainDot
import Idealize.ShloMosaic.Lib.ValueLayout
import Idealize.ShloMosaic.Lib.StableHlo.Predicate

noncomputable section

namespace Cert.KernelIdeal.Body

open Idealize.ShloMosaic Idealize.ShloMosaic.TcCoe Idealize.ShloMosaic.ValueIdx Idealize.SL.Sem
open Cert.KernelIdeal Cert.KernelIdeal.Gen Cert.Spec
open scoped BigOperators

/-! ## A vector as a column, and a column spread over the columns of a matrix -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The one-hot entry -/

/-- A 32-bit word is the word of a number below 2³² exactly when it reads as that number. -/
theorem word_eq_ofNat_iff (x : BitVec 32) (k : ℕ) (hk : k < 2 ^ 32) : x = BitVec.ofNat 32 k ↔ x.toNat = k := by
  constructor
  · rintro rfl; rw [BitVec.toNat_ofNat, Nat.mod_eq_of_lt hk]
  · intro h; apply BitVec.eq_of_toNat_eq; rw [BitVec.toNat_ofNat, Nat.mod_eq_of_lt hk, h]

/-- The equality bit of two words, widened and converted, is 1 where they agree and 0 where they differ. -/
theorem oneHot_scalar (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · rw [StableHlo.Predicate.cmpi_eq_iff.mpr h, if_pos h]
    have e : ((1#1 : BitVec 1).setWidth 32).toInt = 1 := by decide
    rw [e]; norm_num
  · have h0 : IntOp.cmpi .eq a b = 0#1 := eq_zero_of_ne_one (fun h1 => h (StableHlo.Predicate.cmpi_eq_iff.mp h1))
    rw [h0, if_neg h]
    have e : ((0#1 : BitVec 1).setWidth 32).toInt = 0 := by decide
    rw [e]; norm_num

/-- The one-hot matrix of row `off 0` of the codes: the row as a column, spread over 256 columns, compared with the
    column number, the bit widened and converted. -/
def oneHot (off : Fin 2 → ℕ) (hs : S16x1024.Slices off S1x1024) (v1 : IVec S16x1024 32) : FVec Ideal S1024x256 .f32 :=
  sitofp .f32 (extui 32 (cmpi .eq
    (broadcastTo S1024x256 (shapeCast S1024x1 (shapeCast S1024 (extractStridedSlice S1x1024 off v1 hs)
      shapeCasts_S1x1024_S1024) shapeCasts_S1024_S1024x1) broadcasts_S1024x1_S1024x256)
    (iota .tc S1024x256 32 [1] iota_S1024x256_d1_w32)) natLt_1_32)

/-- Entry (r, k) of the one-hot matrix of row h: 1 where the code at (h, r) is k, else 0. -/
theorem oneHot_apply (o : ℕ) (hs : S16x1024.Slices ![o, 0] S1x1024) (v1 : IVec S16x1024 32) (h : Fin 16) (ho : h.val = o)
    (r : Fin 1024) (k : Fin 256) :
    oneHot ![o, 0] hs v1 (ix2 r k) = if v1 (ix2 h r) = BitVec.ofNat 32 k.val then 1 else 0 := by
  unfold oneHot
  rw [sitofp_apply, extui_apply]
  show FloatOps.sitofp (F := Ideal) .f32 ((IntOp.cmpi .eq
      (broadcastTo S1024x256 (shapeCast S1024x1 (shapeCast S1024 (extractStridedSlice S1x1024 ![o, 0] v1 hs)
        shapeCasts_S1x1024_S1024) shapeCasts_S1024_S1024x1) broadcasts_S1024x1_S1024x256 (ix2 r k))
      (iota .tc S1024x256 32 [1] iota_S1024x256_d1_w32 (ix2 r k))).setWidth 32) = _
  rw [broadcastTo_a1_ab_apply, shapeCast_a_a1_apply, shapeCast_1a_a_apply,
    slice2_axis0_apply o v1 hs (0 : Fin 1) r h (by rw [ho]; rfl), iota_single_apply]
  exact oneHot_scalar _ _

/-! ## One product -/

/-- Product number `off 0`: the one-hot matrix of that row of the codes times the codebook slab, into the zero block. -/
def piece (off : Fin 2 → ℕ) (hs : S16x1024.Slices off S1x1024) (v1 : IVec S16x1024 32) (slab : Vec Ideal S1x256x128 .f32) :
    FVec Ideal S1024x128 .f32 :=
  matmul dot_S1024x256_S256x128_S1024x128_1_0_0_1_n_n none (oneHot off hs v1)
    (shapeCast S256x128 slab shapeCasts_S1x256x128_S256x128 : FVec Ideal S256x128 .f32) (constant S1024x128 .f32 0x00000000#32)

/-- Entry (r, d) of product h is the slab's entry at the code of (h, r), when the code is below 256: in the sum over the
    256 columns of the one-hot row only the code's own term is not a product with zero. -/
theorem piece_apply (o : ℕ) (hs : S16x1024.Slices ![o, 0] S1x1024) (v1 : IVec S16x1024 32) (slab : Vec Ideal S1x256x128 .f32)
    (h : Fin 16) (ho : h.val = o) (r : Fin 1024) (d : Fin 128) (hlt : (v1 (ix2 h r)).toNat < 256) :
    piece ![o, 0] hs v1 slab (ix2 r d) = slab (ix3 (0 : Fin 1) ⟨(v1 (ix2 h r)).toNat, hlt⟩ d) := by
  unfold piece
  refine (congrFun (Cert.LibPlainDot.matmul_zero_eq_matProd dot_S1024x256_S256x128_S1024x128_1_0_0_1_n_n
    rfl rfl rfl rfl rfl rfl none (oneHot ![o, 0] hs v1)
    (shapeCast S256x128 slab shapeCasts_S1x256x128_S256x128 : FVec Ideal S256x128 .f32)) (ix2 r d)).trans ?_
  rw [Cert.LibPlainDot.matProd_ix2, Finset.sum_eq_single (⟨(v1 (ix2 h r)).toNat, hlt⟩ : Fin 256)]
  · rw [oneHot_apply o hs v1 h ho r, if_pos ((word_eq_ofNat_iff _ _ (by omega)).mpr rfl), one_mul, shapeCast_1ab_ab_apply]
  · intro k _ hk
    rw [oneHot_apply o hs v1 h ho r, if_neg (fun e => hk (Fin.ext ((word_eq_ofNat_iff _ _ (by have := k.isLt; omega)).mp e).symm)), zero_mul]
  · intro hn; exact absurd (Finset.mem_univ _) hn

/-! ## The sixteen products side by side -/

/-- Row h of the codes is a [1, 1024] block of them, and codebook h a [1, 256, 128] block of the codebooks. -/
theorem slices_row : ∀ h : Fin 16, S16x1024.Slices ![h.val, 0] S1x1024 := by decide
theorem inb_slab : ∀ (h : Fin 16) a, (![h.val, 0, 0] : Fin 3 → Nat) a + S1x256x128.size a ≤ S16x256x128.size a := by decide

/-- Codebook h, as the kernel loads it: the [1, 256, 128] slab of the codebooks at offset h. -/
def slabOf (x1 : Vec Ideal S16x256x128 .f32) (h : Fin 16) : Vec Ideal S1x256x128 .f32 :=
  View.ld x1 (Rect.unit (s := S16x256x128) ![h.val, 0, 0] S1x256x128.size (inb_slab h))

/-- The slab's entry (0, k, d) is the codebooks' entry (h, k, d). -/
theorem slabOf_apply (x1 : Vec Ideal S16x256x128 .f32) (h : Fin 16) (u : Fin 1) (k : Fin 256) (d : Fin 128) :
    slabOf x1 h (ix3 u k d) = x1 (ix3 h k d) := by
  unfold slabOf
  show x1 ((Rect.unit (s := S16x256x128) ![h.val, 0, 0] S1x256x128.size (inb_slab h)).idx (ix3 u k d)) = _
  refine congrArg x1 (funext fun a => Fin.ext ?_)
  have hu : u.val = 0 := by omega
  match a with
  | ⟨0, _⟩ => show h.val + 1 * u.val = h.val; omega
  | ⟨1, _⟩ => show 0 + 1 * k.val = k.val; omega
  | ⟨2, _⟩ => show 0 + 1 * d.val = d.val; omega

/-- Product h of a grid step: row h of the step's codes against codebook h. -/
def pieces (v1 : IVec S16x1024 32) (x1 : Vec Ideal S16x256x128 .f32) (h : Fin 16) : FVec Ideal S1024x128 .f32 :=
  piece ![h.val, 0] (slices_row h) v1 (slabOf x1 h)

/-- The [0, 0] offsets are the zero offsets. -/
theorem zero_offsets : (![0, 0] : Fin 2 → Nat) = fun _ => 0 := funext fun a => by fin_cases a <;> rfl

/-- What the step stores is the sixteen products laid side by side along the columns. -/
theorem out0_2_eq (x0 : Vec Ideal S16x1024 .i32) (x1 : Vec Ideal S16x256x128 .f32) :
    out0_2 (F := Ideal) x0 x1 = concatenate S1024x2048 1
      (List.ofFn fun h : Fin 16 => (⟨S1024x128, pieces (k0_pay6 (F := Ideal) (View.ld x0 r0_0)) x1 h⟩ : (s : Shape) × (s.Idx → Ideal .f32)))
      concatenates_S1024x128_S1024x128_S1024x128_S1024x128_S1024x128_S1024x128_S1024x128_S1024x128_S1024x128_S1024x128_S1024x128_S1024x128_S1024x128_S1024x128_S1024x128_S1024x128_S1024x2048_d1 := by
  unfold out0_2
  rw [View.canon_unit_zero zero_offsets]
  rfl

/-- The output block of one grid step at (r, col), from the step's codes block x0 [16, 1024] and the codebooks x1. -/
theorem out0_2_apply (x0 : Vec Ideal S16x1024 .i32) (x1 : Vec Ideal S16x256x128 .f32)
    (hx0 : ∀ i, (x0 i).toNat < 256) (r : Fin 1024) (col : Fin 2048) :
    out0_2 (F := Ideal) x0 x1 (ix2 r col)
      = x1 (ix3 (headOf col) ⟨(x0 (ix2 (headOf col) r)).toNat % 256, Nat.mod_lt _ (by norm_num)⟩ (laneOf col)) := by
  -- the step's codes, loaded whole and cast to their own shape, are the codes
  have e0 : k0_pay6 (F := Ideal) (View.ld x0 r0_0) = x0 := by
    rw [View.ld_unit_zero (S := S16x1024) zero_offsets]; exact shapeCast_self x0 _
  rw [out0_2_eq, e0]
  -- column col lies in product col / 128, at lane col % 128
  refine (concatenate_ofFn_apply (t := S1024x2048) (s₁ := S1024x128) (1 : Fin 2) (pieces x0 x1) _ rfl 128 rfl (ix2 r col) (headOf col) rfl
    (ix2 r (laneOf col)) rfl (fun b hb => ?_)).trans ?_
  · match b with
    | ⟨0, _⟩ => rfl
    | ⟨1, _⟩ => exact absurd rfl hb
  · unfold pieces
    rw [piece_apply (headOf col).val _ x0 _ (headOf col) rfl r (laneOf col) (hx0 _), slabOf_apply]
    exact congrArg x1 (congrArg (fun k => ix3 (headOf col) k (laneOf col)) (Fin.ext (Nat.mod_eq_of_lt (hx0 _)).symm))

end Cert.KernelIdeal.Body

end
-- ==== Proof.KerCodes.lean ====
/-
  The per-token codes the kernel's host prefix hands to the pallas_call: on the evident domain,
  codes[h, k] = code[h, token k], the token array read flat.
-/
import proofs.«416922_j3255585210640_2_alg».proof.Proof.Gen.KernelIdeal.Frame
import proofs.«416922_j3255585210640_2_alg».proof.Proof.Spec
import Idealize.ShloMosaic.Lib.StableHlo.Run
import Idealize.ShloMosaic.Lib.StableHlo.Predicate
import Idealize.ShloMosaic.Lib.ValueIdx
import Idealize.ShloMosaic.Lib.Pipeline.Value

noncomputable section

namespace Cert.KernelIdeal.Codes

open Idealize.ShloMosaic Idealize.ShloMosaic.TcCoe Idealize.ShloMosaic.ValueIdx Idealize.SL.Sem
open Cert.KernelIdeal Cert.KernelIdeal.Gen Cert.Spec

variable {F : FTy → Type} [FloatOps F]
variable (m : (ℓ : Loc nD τ sig) → Buf (Elt F) ℓ)

/-- The token array and the code table as the program was launched with them. -/
abbrev tokArr (c : Dev nD) : IVec STok 32 := m ((c : Thread nD τ).loc main_arg0)
abbrev codeArr (c : Dev nD) : IVec SCode 32 := m ((c : Thread nD τ).loc main_arg1)

/-- The codes array [16, 16384] as the region finds it. -/
abbrev codesArr (c : Dev nD) : IVec S16x16384 32 := V m c main_v1

/-! ## Words -/

/-- A word below 2³¹ is not negative when read signed. -/
theorem slt_zero_of_small {a : BitVec 32} (ha : a.toNat < 2 ^ 31) : IntOp.cmpi .slt a 0#32 = 0#1 := by
  apply eq_zero_of_ne_one
  intro h
  have h0 := (StableHlo.Predicate.slt_iff_toNat ha (by decide)).1 h
  exact absurd h0 (by simp)

/-- A word below 2³¹ is at least zero when read signed. -/
theorem sge_zero_of_small {a : BitVec 32} (ha : a.toNat < 2 ^ 31) : IntOp.cmpi .sge a 0#32 = 1#1 :=
  (StableHlo.Predicate.sge_iff_toNat ha (by decide)).2 (by simp)

/-- Two words below 2³¹ compare signed as their values. -/
theorem sle_of_le {a b : BitVec 32} (ha : a.toNat < 2 ^ 31) (hb : b.toNat < 2 ^ 31) (hab : a.toNat ≤ b.toNat) :
    IntOp.cmpi .sle a b = 1#1 :=
  (StableHlo.Predicate.sle_iff_toNat ha hb).2 hab

/-! ## A conjunction over a reduced axis -/

/-- A left fold by `and` from 1 over words that are all 1 is 1. -/
theorem foldl_andi_ones {ι : Type} (f : ι → BitVec 1) (l : List ι) (hl : ∀ n ∈ l, f n = 1#1) :
    l.foldl (fun r n => IntOp.andi r (f n)) 1#1 = 1#1 := by
  induction l with
  | nil => rfl
  | cons a l ih =>
    rw [List.foldl_cons, hl a List.mem_cons_self, show IntOp.andi 1#1 1#1 = 1#1 from by decide]
    exact ih fun n hn => hl n (List.mem_cons_of_mem _ hn)

/-- A reduction by `and` from 1 of an array of 1s is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x _ fun n _ => hx n

/-! ## The gather of whole columns -/

/-- A list that is the one-element list holds that element at every position. -/
theorem getElem_of_eq_singleton {β : Type} (l : List β) (b : β) (hl : l = [b]) (i : Nat) (hi : i < l.length) : l[i] = b := by
  subst hl
  have h0 : i = 0 := by simpa using hi
  subst h0
  rfl

/-- A table [R × N] gathered along its second axis at an [n × 1] column of start indices, the first axis kept whole
    (offset axis 0 of the result, the second operand axis collapsed and start-indexed, the index vector on axis 1):
    result element (r, p) is the table's row r at position p's start index, read signed and clamped into the row. -/
theorem gather_col_apply {α : Type} {R N n w : Nat} (d : GatherDims ⟨2, ![R, N]⟩ ⟨2, ![n, 1]⟩ ⟨2, ![R, n]⟩)
    (hoff : d.offsetDims = [0]) (hcoll : d.collapsedSliceDims = [1]) (hob : d.operandBatchingDims = [])
    (hsim : d.startIndexMap = [1]) (hivd : d.indexVectorDim = 1)
    (x : (⟨2, ![R, N]⟩ : Shape).Idx → α) (idx : IVec ⟨2, ![n, 1]⟩ w) (r : Fin R) (p : Fin n) (hN : 0 < N) :
    Host.gather d x idx (ix2 r p) = x (ix2 r ⟨min (idx (ix2 p (0 : Fin 1))).toInt.toNat (N - 1), by omega⟩) := by
  unfold Host.gather
  congr 1
  funext a
  apply Fin.ext
  have hb : ∀ a : Fin 2, a ∉ d.operandBatchingDims := fun a => by rw [hob]; exact List.not_mem_nil
  match a with
  | ⟨0, _⟩ =>
    show d.start (ix2 r p) idx 0 + d.batchCoord (ix2 r p) 0 + d.offCoord (ix2 r p) 0 = r.val
    have hm : (0 : Fin 2) ∉ d.startIndexMap := by rw [hsim]; simp
    have hk : (0 : Fin 2) ∈ d.sKept := by rw [GatherDims.mem_sKept, hcoll, hob]; simp
    have hs : d.start (ix2 r p) idx 0 = 0 := by unfold GatherDims.start; rw [dif_neg hm]
    rw [hs, GatherDims.batchCoord_eq_zero _ _ _ (hb 0)]
    unfold GatherDims.offCoord
    rw [dif_pos hk]
    have e : ∀ X : Fin 2, X = 0 → ((ix2 r p : (⟨2, ![R, n]⟩ : Shape).Idx) X).val = r.val := by rintro _ rfl; rfl
    rw [e _ (getElem_of_eq_singleton _ _ hoff _ _)]
    omega
  | ⟨1, _⟩ =>
    show d.start (ix2 r p) idx 1 + d.batchCoord (ix2 r p) 1 + d.offCoord (ix2 r p) 1 = min (idx (ix2 p (0 : Fin 1))).toInt.toNat (N - 1)
    have hm : (1 : Fin 2) ∈ d.startIndexMap := by rw [hsim]; exact List.mem_singleton.mpr rfl
    have hc : (1 : Fin 2) ∈ d.collapsedSliceDims := by rw [hcoll]; exact List.mem_singleton.mpr rfl
    have hk : (1 : Fin 2) ∉ d.sKept := fun h => ((d.mem_sKept 1).1 h).1 hc
    have hsl : d.sliceSizes 1 = 1 := d.slice_collapsed 1 hc
    rw [GatherDims.batchCoord_eq_zero _ _ _ (hb 1), GatherDims.offCoord_eq_zero _ _ _ hk]
    show d.start (ix2 r p) idx 1 = _
    unfold GatherDims.start
    rw [dif_pos hm]
    show min (idx _).toInt.toNat (N - d.sliceSizes 1) = _
    rw [hsl]
    congr 3
    congr 1
    funext b
    have hbd : d.batchDims = [1] := by show Shape.kept _ d.offsetDims = [1]; rw [hoff]; rfl
    match b with
    | ⟨0, _⟩ =>
      unfold GatherDims.siIdx
      rw [dif_neg (by rw [hivd]; exact Nat.zero_ne_one)]
      unfold GatherDims.siCoord
      apply Fin.ext
      simp only [Fin.val_cast]
      have e : ∀ X : Fin 2, X = 1 → ((ix2 r p : (⟨2, ![R, n]⟩ : Shape).Idx) X).val = p.val := by rintro _ rfl; rfl
      exact e _ (getElem_of_eq_singleton _ _ hbd _ _)
    | ⟨1, _⟩ =>
      unfold GatherDims.siIdx
      rw [dif_pos (by rw [hivd])]
      apply Fin.ext
      show List.idxOf (1 : Fin 2) d.startIndexMap = 0
      rw [hsim]; rfl

/-! ## The host prefix as one function of the token array and the code table -/

section Term
variable (tok : IVec S4x4096 32) (code : IVec S16x50257 32)

/-- The token array read flat. -/
def flatTok : IVec S16384 32 := shapeCast S16384 tok shapeCasts_S4x4096_S16384

/-- The flat tokens with a negative one moved up by the table's length (the wrap of a negative position). -/
def wrapTok : IVec S16384 32 :=
  select (cmpi .slt (flatTok tok) (broadcastInDim S16384 ![] bcast_S_S16384 (constantI S_ 32 0#32)))
    (addi (flatTok tok) (broadcastInDim S16384 ![] bcast_S_S16384 (constantI S_ 32 50257#32))) (flatTok tok)

/-- The same as a column of start indices. -/
def startCol : IVec S16384x1 32 := broadcastInDim S16384x1 ![0] bcast_S16384_S16384x1_0 (wrapTok tok)

/-- Which positions lie inside the table: 0 ≤ start index ≤ 50256, conjoined over the column's unit axis. -/
def inTable : IVec S16384 1 :=
  Host.reduce IntOp.andi
    (andi (cmpi .sge (startCol tok) (broadcastInDim S16384x1 ![] bcast_S_S16384x1 (constantI S_ 32 0#32)))
      (cmpi .sle (startCol tok) (broadcastInDim S16384x1 ![0, 1] bcast_S1x1_S16384x1_0_1
        (broadcastInDim S1x1 ![1] bcast_S1_S1x1_1 (constantI S1 32 50256#32)))))
    (constantI S_ 1 1#1) reducesTo_S16384x1_S16384_d1 h_S_

/-- The codes array: the table's columns gathered at the start indices where they lie inside the table, the least
    integer elsewhere. -/
def codesTerm : IVec S16x16384 32 :=
  select (broadcastInDim S16x16384 ![1] bcast_S16384_S16x16384_1 (inTable tok))
    (Host.gather gather_S16x50257_S16384x1_S16x16384_0_1_n_n_1_1_161 code (startCol tok))
    (broadcastInDim S16x16384 ![] bcast_S_S16x16384 (constantI S_ 32 2147483648#32))

end Term

set_option maxHeartbeats 1600000 in
/-- The codes array the region finds is that function of the launch contents. -/
theorem codesArr_eq (c : Dev nD) : codesArr m c = codesTerm (tokArr m c) (codeArr m c) := by
  show (V m c main_v1 : S16x16384.Idx → BitVec 32) = _
  dsimp only [Gen.V, Gen.V0]
  simp only [Gen.hostOps0, Gen.hostOps0_1, List.flatten_cons, List.flatten_nil, List.append_nil, List.cons_append, List.nil_append]
  after_results_simp
  simp only [StableHlo.TRef.ofBuf, StableHlo.TRef.toBuf, cast_eq]
  rfl

/-! ## That function read at (h, k), on tokens that name rows of the table -/

section Apply
variable (tok : IVec S4x4096 32) (code : IVec S16x50257 32)

/-- Flat token k is the token at (k / 4096, k % 4096): the two positions are the same in row-major order. -/
theorem flatTok_apply (k : Fin 16384) :
    flatTok tok (ix1 k) = tok (ix2 ⟨k.val / 4096, by omega⟩ ⟨k.val % 4096, Nat.mod_lt _ (by norm_num)⟩) := by
  unfold flatTok
  refine shapeCast_apply tok _ (ix1 k) _ ?_
  rw [Shape.rowMajor_val_two, Shape.rowMajor_val_one]
  show k.val / 4096 * 4096 + k.val % 4096 = k.val
  omega

/-- A token below 50257 is not negative, so the wrap leaves it. -/
theorem wrapTok_apply (htok : ∀ i, (tok i).toNat < 50257) (k : Fin 16384) : wrapTok tok (ix1 k) = flatTok tok (ix1 k) := by
  have hs : (flatTok tok (ix1 k)).toNat < 2 ^ 31 := by rw [flatTok_apply]; exact lt_trans (htok _) (by norm_num)
  show Scalar.select (IntOp.cmpi .slt (flatTok tok (ix1 k)) 0#32) _ (flatTok tok (ix1 k)) = _
  rw [slt_zero_of_small hs, select_zero]

/-- The column of start indices at row k is the wrapped token k. -/
theorem startCol_apply (k : Fin 16384) : startCol tok (ix2 k (0 : Fin 1)) = wrapTok tok (ix1 k) := by
  unfold startCol
  exact broadcastInDim_apply _ _ _ _ (ix1 k) fun a => by
    match a with
    | ⟨0, _⟩ => rfl

/-- Every start index is a token, hence below 50257. -/
theorem startCol_small (htok : ∀ i, (tok i).toNat < 50257) (i : S16384x1.Idx) : (startCol tok i).toNat < 50257 := by
  obtain ⟨k, q, rfl⟩ : ∃ (k : Fin 16384) (q : Fin 1), i = ix2 k q := ⟨i 0, i 1, eq_ix2 i⟩
  obtain rfl : q = 0 := Subsingleton.elim _ _
  rw [startCol_apply, wrapTok_apply tok htok, flatTok_apply]
  exact htok _

/-- So every position lies inside the table. -/
theorem inTable_apply (htok : ∀ i, (tok i).toNat < 50257) (j : S16384.Idx) : inTable tok j = 1#1 := by
  unfold inTable
  refine reduce_andi_ones _ _ _ _ (fun i => ?_) rfl j
  have hs := startCol_small tok htok i
  show IntOp.andi (IntOp.cmpi .sge (startCol tok i) 0#32) (IntOp.cmpi .sle (startCol tok i) 50256#32) = 1#1
  rw [sge_zero_of_small (lt_trans hs (by norm_num)),
    sle_of_le (lt_trans hs (by norm_num)) (by decide) (by show (startCol tok i).toNat ≤ 50256; omega)]
  decide

/-- The codes array at (h, k) is the table's row h at token k. -/
theorem codesTerm_apply (htok : ∀ i, (tok i).toNat < 50257) (h : Fin 16) (k : Fin 16384) :
    codesTerm tok code (ix2 h k)
      = code (ix2 h ⟨(tok (ix2 ⟨k.val / 4096, by omega⟩ ⟨k.val % 4096, Nat.mod_lt _ (by norm_num)⟩)).toNat, htok _⟩) := by
  have hv : broadcastInDim S16x16384 ![1] bcast_S16384_S16x16384_1 (inTable tok) (ix2 h k) = 1#1 := by
    rw [broadcastInDim_apply _ _ _ (ix2 h k) (ix1 k) (fun a => by match a with | ⟨0, _⟩ => rfl)]
    exact inTable_apply tok htok _
  unfold codesTerm
  rw [select_apply, hv, select_one, gather_col_apply _ rfl rfl rfl rfl rfl code (startCol tok) h k (by norm_num)]
  refine congrArg code (congrArg (ix2 h) (Fin.ext ?_))
  show min (startCol tok (ix2 k (0 : Fin 1))).toInt.toNat (50257 - 1) = _
  rw [startCol_apply, wrapTok_apply tok htok, flatTok_apply]
  have hT := htok (ix2 ⟨k.val / 4096, by omega⟩ ⟨k.val % 4096, Nat.mod_lt _ (by norm_num)⟩)
  rw [StableHlo.Predicate.toInt_eq_toNat_of_lt (lt_trans hT (by norm_num)), Int.toNat_natCast]
  exact Nat.min_eq_left (by omega)

end Apply

/-- Flat token k is position (k / 4096, k % 4096). -/
theorem codes_apply (c : Dev nD) (hin : InRange (tokArr m c) (codeArr m c)) (h : Fin 16) (k : Fin 16384) :
    codesArr m c (ix2 h k)
      = codeArr m c (ix2 h (tokenAt (tokArr m c) ⟨k.val / 4096, by omega⟩ ⟨k.val % 4096, Nat.mod_lt _ (by norm_num)⟩)) := by
  refine (congrFun (codesArr_eq m c) (ix2 h k)).trans ((codesTerm_apply _ _ hin.1 h k).trans ?_)
  refine congrArg (codeArr m c) (congrArg (ix2 h) (Fin.ext ?_))
  exact (Nat.mod_eq_of_lt (hin.1 _)).symm

/-- The codebooks as the region finds them are the launch contents. -/
theorem books_eq (c : Dev nD) : V m c main_arg2 = m ((c : Thread nD τ).loc main_arg2) := V_main_arg2 m c

end Cert.KernelIdeal.Codes

end
-- ==== Proof.KerValue.lean ====
/-
  The kernel's pallas_call output as one array. Grid step t (of sixteen) reads columns 1024·t … 1024·t + 1023 of the
  codes array [16, 16384] and the whole codebooks, and writes rows 1024·t … 1024·t + 1023 of the output [16384, 2048];
  by the step's entry-by-entry value, row k, column h·128 + d of the output is book[h, codes[h, k], d]. The sixteen row
  blocks tile the output, so after the run the output array is that function; the reshape after the region lays the
  16384 rows out as [4, 4096].
-/
import proofs.«416922_j3255585210640_2_alg».proof.Proof.KerBody
import proofs.«416922_j3255585210640_2_alg».proof.Proof.KerCodes
import Idealize.ShloMosaic.Lib.Pipeline.Value
import Idealize.ShloMosaic.Lib.StableHlo.Run
import Idealize.ShloMosaic.Lib.Tactic

noncomputable section

namespace Cert.KernelIdeal.Rows

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Codes Cert.Spec

variable (m : (ℓ : Loc nD τ sig) → Buf (Elt Ideal) ℓ) (ρ : Dev nD → PrngReg)

/-- Row k, column col of the pallas_call's output: the entry of codebook col / 128 at the code of token k, lane col % 128. -/
def rowsOut (codes : IVec S16x16384 32) (book : FVec Ideal S16x256x128 .f32) : S16384x2048.Idx → EReal :=
  fun i => book (ix3 (headOf (i 1)) ⟨(codes (ix2 (headOf (i 1)) (i 0))).toNat % 256, Nat.mod_lt _ (by norm_num)⟩ (laneOf (i 1)))

theorem rowsOut_ix2 (codes : IVec S16x16384 32) (book : FVec Ideal S16x256x128 .f32) (k : Fin 16384) (col : Fin 2048) :
    rowsOut codes book (ix2 k col)
      = book (ix3 (headOf col) ⟨(codes (ix2 (headOf col) k)).toNat % 256, Nat.mod_lt _ (by norm_num)⟩ (laneOf col)) := rfl

/-- The printed index maps over the grid: the codes window moves along its columns with the step, the codebooks
    window stays, the output window moves along its rows with the step. -/
theorem idx_facts : ∀ t : Fin cfg0.N, win0_0.index t (0 : Fin 2) = 0 ∧ win0_0.index t (1 : Fin 2) = t.val
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

theorem t_lt (t : Fin cfg0.N) : t.val < 16 := by have h := t.isLt; have hN : cfg0.N = 16 := N_0; omega

/-- The codes block of step t is columns 1024·t … of the codes array. -/
theorem codes_blk (c : Dev nD) (t : Fin cfg0.N) (h : Fin 16) (r : Fin 1024) :
    (iblk m c 0 t : Vec Ideal S16x1024 .i32) (ix2 h r)
      = codesArr m c (ix2 h ⟨t.val * 1024 + r.val, by have := t_lt t; omega⟩) := by
  obtain ⟨e0, e1, -⟩ := idx_facts t
  unfold iblk
  rw [View.read_apply]
  show codesArr m c _ = codesArr m c _
  refine congrArg (codesArr m c) ?_
  funext a
  apply Fin.ext
  match a with
  | ⟨0, _⟩ => show win0_0.index t (0 : Fin 2) * 16 + 1 * h.val = h.val; omega
  | ⟨1, _⟩ => show win0_0.index t (1 : Fin 2) * 1024 + 1 * r.val = t.val * 1024 + r.val; omega

/-- The codebooks block of every step is the whole codebooks array. -/
theorem books_blk (c : Dev nD) (t : Fin cfg0.N) (y : S16x256x128.Idx) :
    (iblk m c 1 t : Vec Ideal S16x256x128 .f32) y = (V m c main_arg2 : FVec Ideal S16x256x128 .f32) y := by
  obtain ⟨-, -, e0, e1, e2, -⟩ := idx_facts t
  unfold iblk
  rw [View.read_apply]
  show (V m c main_arg2 : FVec Ideal S16x256x128 .f32) _ = _
  refine congrArg (V m c main_arg2 : FVec Ideal S16x256x128 .f32) ?_
  funext a
  apply Fin.ext
  match a with
  | ⟨0, _⟩ => show win0_1.index t (0 : Fin 3) * 16 + 1 * (y 0).val = (y 0).val; omega
  | ⟨1, _⟩ => show win0_1.index t (1 : Fin 3) * 256 + 1 * (y 1).val = (y 1).val; omega
  | ⟨2, _⟩ => show win0_1.index t (2 : Fin 3) * 128 + 1 * (y 2).val = (y 2).val; omega

/-- Entry (r, col) of step t's output block is entry (1024·t + r, col) of the output array. -/
theorem out_emb (t : Fin cfg0.N) (r : Fin 1024) (col : Fin 2048) :
    ((cfg0.win 2).blk t).view.emb (ix2 r col) = ix2 (⟨t.val * 1024 + r.val, by have := t_lt t; omega⟩ : Fin 16384) col := by
  obtain ⟨-, -, -, -, -, e0, e1⟩ := idx_facts t
  funext a
  apply Fin.ext
  match a with
  | ⟨0, _⟩ => show win0_2.index t (0 : Fin 2) * 1024 + 1 * r.val = t.val * 1024 + r.val; omega
  | ⟨1, _⟩ => show win0_2.index t (1 : Fin 2) * 2048 + 1 * col.val = col.val; omega

/-- On the evident domain every entry of the codes array is a codebook entry's number. -/
theorem codes_lt (c : Dev nD) (hin : InRange (tokArr m c) (codeArr m c)) (h : Fin 16) (k : Fin 16384) :
    (codesArr m c (ix2 h k)).toNat < 256 := by
  rw [codes_apply m c hin h k]; exact hin.2 _

/-- WHAT STEP t WRITES BACK is block t of `rowsOut` of the codes array and the codebooks as the region finds them. -/
theorem flushed_eq (c : Dev nD) (hin : InRange (tokArr m c) (codeArr m c)) (t : Fin cfg0.N) :
    (dats m 0 c).flushed 2 t
      = ((cfg0.win 2).blk t).view.read (Elt Ideal) (rowsOut (codesArr m c) (V m c main_arg2)) := by
  show (cfg0.win 2).cut (grid0.coords t) ((dats m 0 c).after 2 t) = _
  rw [after0_2]
  funext j
  obtain ⟨r, col, rfl⟩ : ∃ (r : Fin 1024) (col : Fin 2048), j = ix2 r col := ⟨j 0, j 1, eq_ix2 j⟩
  rw [View.read_apply, out_emb, rowsOut_ix2]
  show out0_2 (F := Ideal) (iblk m c 0 t) (iblk m c 1 t) (ix2 r col) = _
  refine (Body.out0_2_apply (iblk m c 0 t) (iblk m c 1 t) (fun i => ?_) r col).trans ?_
  · obtain ⟨h, r', rfl⟩ : ∃ (h : Fin 16) (r' : Fin 1024), i = ix2 h r' := ⟨i 0, i 1, eq_ix2 i⟩
    rw [codes_blk]; exact codes_lt m c hin _ _
  · rw [books_blk, codes_blk]
    rfl

/-- The sixteen row blocks tile the output array: row k is in step k / 1024's block. -/
theorem covered (i : S16384x2048.Idx) :
    ∃ t : Fin cfg0.N, (cfg0.win 2).flush t = true ∧ i ∈ ((cfg0.win 2).blk t).view.set := by
  have hN : cfg0.N = 16 := N_0
  have h0 : (i 0).val < 16384 := (i 0).isLt
  have h1 : (i 1).val < 2048 := (i 1).isLt
  let t : Fin cfg0.N := ⟨(i 0).val / 1024, by omega⟩
  obtain ⟨-, -, -, -, -, e0, e1⟩ := idx_facts t
  have et : t.val = (i 0).val / 1024 := rfl
  refine ⟨t, flush0_2 t, ?_⟩
  show i ∈ ((View.whole main_v2).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 2048 ≤ (i 1).val ∧ (i 1).val < win0_2.index t (1 : Fin 2) * 2048 + 2048
    omega

/-- THE OUTPUT ARRAY after the run is `rowsOut` of the codes array and the codebooks. -/
theorem final (c : Dev nD) (hin : InRange (tokArr m c) (codeArr m c)) :
    (dats m 0 c).arrAt 2 cfg0.N = rowsOut (codesArr m c) (V m c main_arg2) :=
  (dats m 0 c).arrAt_eq_of_cover 2 (rowsOut (codesArr m c) (V m c main_arg2))
    (fun t _ => flushed_eq m c hin t) covered

/-- After the region the program's result buffer holds the output array's rows laid out as [4, 4096]. -/
theorem tail_eq (c : Dev nD) :
    Pipeline.afterTail₀ cfgs (dats m) 0 (V0 m) [hostOps1] c main_v3
      = shapeCast S4x4096x2048 ((dats m 0 c).arrAt 2 cfg0.N) shapeCasts_S16384x2048_S4x4096x2048 := by
  unfold Pipeline.afterTail₀
  show StableHlo.after hostOps1 _ (Proc.devRef .tc main_v3) = _
  after_results
  have hw := Pipeline.withArrays_arr spec0 launch0.win.arr_inj c (V0 m c) (fun w => (dats m 0 c).arrAt w cfg0.N) 2
  funext i
  show shapeCast S4x4096x2048 (Pipeline.withArrays spec0 c (V0 m c) (fun w => (dats m 0 c).arrAt w cfg0.N)
    (Proc.devRef .tc (Pipeline.arrRef spec0 2))) shapeCasts_S16384x2048_S4x4096x2048 i = _
  rw [hw]

/-- Row 4096·b + s of the output array is position (b, s): with codes[h, k] = code[h, token k] the rows laid out as
    [4, 4096] are the embedding. -/
theorem rows_reshaped (codes : IVec S16x16384 32) (book : FVec Ideal S16x256x128 .f32) (tok : IVec STok 32) (code : IVec SCode 32)
    (hcodes : ∀ (h : Fin 16) (k : Fin 16384),
      codes (ix2 h k) = code (ix2 h (tokenAt tok ⟨k.val / 4096, by omega⟩ ⟨k.val % 4096, Nat.mod_lt _ (by norm_num)⟩))) :
    shapeCast S4x4096x2048 (rowsOut codes book) shapeCasts_S16384x2048_S4x4096x2048 = embed tok code book := by
  funext j
  obtain ⟨b, s, col, rfl⟩ : ∃ (b : Fin 4) (s : Fin 4096) (col : Fin 2048), j = ix3 b s col := ⟨j 0, j 1, j 2, eq_ix3 j⟩
  have hb := b.isLt
  have hs := s.isLt
  rw [shapeCast_apply _ _ (ix3 b s col) (ix2 (⟨b.val * 4096 + s.val, by omega⟩ : Fin 16384) col)
    (by rw [Shape.rowMajor_val_two, Shape.rowMajor_val_three]; rfl)]
  rw [rowsOut_ix2, hcodes, embed_ix3]
  unfold embedAt codeAt
  have e1 : (⟨(b.val * 4096 + s.val) / 4096, by omega⟩ : Fin 4) = b :=
    Fin.ext (by show (b.val * 4096 + s.val) / 4096 = b.val; omega)
  have e2 : (⟨(b.val * 4096 + s.val) % 4096, Nat.mod_lt _ (by norm_num)⟩ : Fin 4096) = s :=
    Fin.ext (by show (b.val * 4096 + s.val) % 4096 = s.val; omega)
  rw [e1, e2]

/-- THE RUN, READ: on the evident domain the idealized kernel program terminates with its result buffer at the embedding
    of its arguments, and the arguments unchanged. -/
theorem run (hin : ∀ c : Dev nD, InRange (tokArr m c) (codeArr m c)) :
    θ_run defs (onTc (τ := τ) (main (F := Ideal))) ⟨m, fun _ => 0, ρ⟩ fun r => ∀ c : Dev nD,
      r.2.mem ((c.tc : Thread nD τ).loc main_v3)
          = embed (tokArr m c) (codeArr m c) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v3 (Pipeline.mem_restRefs_of main_v3 (by decide) (by decide))).trans ((tail_eq m c).trans (by
        rw [final m c (hin c), rows_reshaped _ _ _ _ (codes_apply m c (hin c)), books_eq])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.Rows

end
-- ==== Proof.RefOps.lean ====
/-
  The idealized reference as one straight line of host operations: jnp's take_along_axis over the codebooks
  (negative codes wrapped by 256, codes outside [0, 255] answered by the fill value), the transposition and
  flattening of the gathered rows into the weight table [50257, 2048], and jnp's take of that table's rows at
  the tokens (negative tokens wrapped by 50257, tokens outside [0, 50256] answered by the fill value). The
  outlined functions' operations stand at their call sites, over the calls' buffer records.
-/
import proofs.«416922_j3255585210640_2_alg».proof.ReferenceIdeal
import Idealize.ShloMosaic.Lib.StableHlo.Run

noncomputable section

namespace Cert.ReferenceIdeal.RefRun

open Idealize.ShloMosaic Idealize.ShloMosaic.StableHlo Idealize.SL.Sem
open Cert.ReferenceIdeal Cert.ReferenceIdeal.Facts₀

variable {F : FTy → Type} [FloatOps F] [Facts]

/-- @main's host operations in program order, every call inlined. -/
abbrev ops : List (HloOp τ sig (Elt F)) :=
  [ unary main_arg1 main_v0 (broadcastInDim S16x50257x1 ![0, 1] bcast_S16x50257_S16x50257x1_0_1),
    -- take_along_axis (codebooks, codes as a column)
    TRef.nullary main_call0.c (constantI S_ 32 0#32),
    TRef.unary main_call0.c main_call0.v0 (broadcastInDim S16x50257x1 ![] bcast_S_S16x50257x1),
    TRef.binary (.of main_v0) main_call0.v0 main_call0.v1 (cmpi .slt),
    TRef.nullary main_call0.c_0 (constantI S_ 32 256#32),
    TRef.unary main_call0.c_0 main_call0.v2 (broadcastInDim S16x50257x1 ![] bcast_S_S16x50257x1),
    TRef.binary (.of main_v0) main_call0.v2 main_call0.v3 addi,
    TRef.ternary main_call0.v1 main_call0.v3 (.of main_v0) main_call0.v4 select,
    TRef.nullary main_call0.c_1 (constantI S1 32 255#32),
    TRef.nullary main_call0.c_2 (constantI S_ 32 0#32),
    TRef.unary main_call0.c_2 main_call0.v5 (broadcastInDim S16x50257x1 ![] bcast_S_S16x50257x1),
    TRef.binary main_call0.v4 main_call0.v5 main_call0.v6 (cmpi .sge),
    TRef.unary main_call0.c_1 main_call0.v7 (broadcastInDim S1x1x1 ![2] bcast_S1_S1x1x1_2),
    TRef.unary main_call0.v7 main_call0.v8 (broadcastInDim S16x50257x1 ![0, 1, 2] bcast_S1x1x1_S16x50257x1_0_1_2),
    TRef.binary main_call0.v4 main_call0.v8 main_call0.v9 (cmpi .sle),
    TRef.binary main_call0.v6 main_call0.v9 main_call0.v10 andi,
    TRef.nullary main_call0.c_3 (constantI S_ 1 1#1),
    TRef.binary main_call0.v10 main_call0.c_3 main_call0.v11 (fun x v => Host.reduce IntOp.andi x v reducesTo_S16x50257x1_S16x50257_d2 h_S_),
    TRef.binary (.of main_arg2) main_call0.v4 main_call0.v12 (fun x i => Host.gather gather_S16x256x128_S16x50257x1_S16x50257x128_2_1_0_0_1_2_11128 x i),
    TRef.unary main_call0.v11 main_call0.v13 (broadcastInDim S16x50257x128 ![0, 1] bcast_S16x50257_S16x50257x128_0_1),
    TRef.nullary main_call0.cst (constant S_ .f32 0x7FC00000#32),
    TRef.unary main_call0.cst main_call0.v14 (broadcastInDim S16x50257x128 ![] bcast_S_S16x50257x128),
    TRef.ternary main_call0.v13 main_call0.v12 main_call0.v14 main_call0.v15 select,
    -- the weight table
    unary main_v1 main_v2 (transpose S50257x16x128 [1, 0, 2] · transposes_S16x50257x128_S50257x16x128_1_0_2),
    reshape main_v2 main_v3 rfl shapeCasts_S50257x16x128_S50257x2048,
    -- take (weight table, tokens)
    TRef.nullary main_call1.c (constantI S_ 32 0#32),
    TRef.unary main_call1.c main_call1.v0 (broadcastInDim S4x4096 ![] bcast_S_S4x4096),
    TRef.binary (.of main_arg0) main_call1.v0 main_call1.v1 (cmpi .slt),
    TRef.nullary main_call1.c_0 (constantI S_ 32 50257#32),
    TRef.unary main_call1.c_0 main_call1.v2 (broadcastInDim S4x4096 ![] bcast_S_S4x4096),
    TRef.binary (.of main_arg0) main_call1.v2 main_call1.v3 addi,
    TRef.ternary main_call1.v1 main_call1.v3 (.of main_arg0) main_call1.call0.v0 select,
    TRef.unary main_call1.call0.v0 main_call1.v5 (broadcastInDim S4x4096x1 ![0, 1] bcast_S4x4096_S4x4096x1_0_1),
    TRef.nullary main_call1.c_1 (constantI S1 32 50256#32),
    TRef.nullary main_call1.c_2 (constantI S_ 32 0#32),
    TRef.unary main_call1.c_2 main_call1.v6 (broadcastInDim S4x4096x1 ![] bcast_S_S4x4096x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4x4096x1 ![0, 1, 2] bcast_S1x1x1_S4x4096x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4x4096x1_S4x4096_d2 h_S_),
    TRef.binary (.of main_v3) main_call1.v5 main_call1.v13 (fun x i => Host.gather gather_S50257x2048_S4x4096x1_S4x4096x2048_2_0_n_n_0_2_12048 x i),
    TRef.unary main_call1.v12 main_call1.v14 (broadcastInDim S4x4096x2048 ![0, 1] bcast_S4x4096_S4x4096x2048_0_1),
    TRef.nullary main_call1.cst (constant S_ .f32 0x7FC00000#32),
    TRef.unary main_call1.cst main_call1.v15 (broadcastInDim S4x4096x2048 ![] bcast_S_S4x4096x2048),
    TRef.ternary main_call1.v14 main_call1.v13 main_call1.v15 main_call1.v16 select ]

set_option maxRecDepth 1024 in
/-- @main is that straight line: the outlined functions unfolded at their calls, sequencing reassociated. -/
theorem main_eq (c : Dev nD) : main (F := F) c = seq ops := by
  simp only [main, fn_take_along_axis.body, fn_where.body, fn_take.body, seq, bind_assoc, pure_bind]
  rfl

end Cert.ReferenceIdeal.RefRun

end
-- ==== Proof.RefRun.lean ====
/-
  The idealized reference runs: it has no kernel, so every weakly fair execution performs its host operations in
  order and ends with every buffer at the operations' fold over the launch contents.
-/
import proofs.«416922_j3255585210640_2_alg».proof.Proof.RefOps

noncomputable section

namespace Cert.ReferenceIdeal.RefRun

open Idealize.ShloMosaic Idealize.ShloMosaic.TcCoe Idealize.ShloMosaic.StableHlo Idealize.SL.Sem
open Cert.ReferenceIdeal Cert.ReferenceIdeal.Facts₀

variable {F : FTy → Type} [FloatOps F] [Facts]

/-- The program scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub ..,
    nullary_bufs_sub .., unary_bufs_sub .., binary_bufs_sub .., nullary_bufs_sub .., unary_bufs_sub .., binary_bufs_sub ..,
    ternary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub ..,
    unary_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- From any memory with zero counters every weakly fair execution of @main terminates, and every final state has each
    TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefGathers.lean ====
/-
  The reference's two gathers read at an index. The take of rows: result (b, s, col) is the table's entry at row
  (the start index at (b, s), read signed and clamped into the table) and column col. The take along the codebooks'
  second axis, batched over the first: result (h, t, d) is the codebooks' entry at codebook h, entry (the start index
  at (h, t), read signed and clamped into the codebook), lane d.
-/
import proofs.«416922_j3255585210640_2_alg».proof.ReferenceIdeal
import Idealize.ShloMosaic.Lib.ValueIdx

noncomputable section

namespace Cert.ReferenceIdeal.Gathers

open Idealize.ShloMosaic Idealize.ShloMosaic.ValueIdx
open Cert.ReferenceIdeal Cert.ReferenceIdeal.Facts₀

variable [Facts]

local notation "dRows" => gather_S50257x2048_S4x4096x1_S4x4096x2048_2_0_n_n_0_2_12048
local notation "dBooks" => gather_S16x256x128_S16x50257x1_S16x50257x128_2_1_0_0_1_2_11128

/-- The take of rows at (b, s, col). -/
theorem rows_gather_apply {α : Type} (x : S50257x2048.Idx → α) (idx : IVec S4x4096x1 32) (b : Fin 4) (s : Fin 4096) (col : Fin 2048) :
    Host.gather dRows x idx (ix3 b s col)
      = x (ix2 (⟨min (idx (ix3 b s (0 : Fin 1))).toInt.toNat 50256, by omega⟩ : Fin 50257) col) := by
  unfold Host.gather
  refine congrArg x ?_
  funext a
  apply Fin.ext
  match a with
  | ⟨0, _⟩ =>
    show GatherDims.start dRows (ix3 b s col) idx 0 + GatherDims.batchCoord dRows (ix3 b s col) 0 + GatherDims.offCoord dRows (ix3 b s col) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap dRows from List.mem_singleton.mpr rfl)]
    have hsi : GatherDims.siIdx dRows (ix3 b s col) ⟨List.idxOf (0 : Fin 2) (GatherDims.startIndexMap dRows),
        List.idxOf_lt_length_iff.2 (List.mem_singleton.mpr rfl)⟩ = ix3 b s (0 : Fin 1) := by
      funext b'; refine Fin.ext ?_
      match b' with
      | ⟨0, _⟩ => rfl
      | ⟨1, _⟩ => rfl
      | ⟨2, _⟩ => rfl
    rw [hsi]
    rfl
  | ⟨1, _⟩ =>
    show GatherDims.start dRows (ix3 b s col) idx 1 + GatherDims.batchCoord dRows (ix3 b s col) 1 + GatherDims.offCoord dRows (ix3 b s col) 1 = _
    rw [GatherDims.batchCoord_eq_zero _ _ _ List.not_mem_nil]
    have hstart : GatherDims.start dRows (ix3 b s col) idx 1 = 0 := by
      unfold GatherDims.start
      rw [dif_neg (show ¬ (1 : Fin 2) ∈ GatherDims.startIndexMap dRows from
        fun hm => absurd (List.mem_singleton.mp hm) (by decide))]
    rw [hstart]
    simp only [Nat.add_zero, Nat.zero_add]
    have hk : (1 : Fin 2) ∈ GatherDims.sKept dRows :=
      (GatherDims.mem_sKept _ _).mpr ⟨fun h => absurd (List.mem_singleton.mp h) (by decide), List.not_mem_nil⟩
    unfold GatherDims.offCoord
    rw [dif_pos hk]
    rfl

/-- The take along the codebooks' entries, batched over the codebooks, at (h, t, d). -/
theorem books_gather_apply {α : Type} (x : S16x256x128.Idx → α) (idx : IVec S16x50257x1 32) (h : Fin 16) (t : Fin 50257) (d : Fin 128) :
    Host.gather dBooks x idx (ix3 h t d)
      = x (ix3 h (⟨min (idx (ix3 h t (0 : Fin 1))).toInt.toNat 255, by omega⟩ : Fin 256) d) := by
  unfold Host.gather
  refine congrArg x ?_
  funext a
  apply Fin.ext
  match a with
  | ⟨0, _⟩ =>
    show GatherDims.start dBooks (ix3 h t d) idx 0 + GatherDims.batchCoord dBooks (ix3 h t d) 0 + GatherDims.offCoord dBooks (ix3 h t d) 0 = _
    have hb : (0 : Fin 3) ∈ GatherDims.operandBatchingDims dBooks := List.mem_singleton.mpr rfl
    rw [GatherDims.start_batching _ _ _ _ hb,
      GatherDims.offCoord_eq_zero _ _ _ (fun hk => ((GatherDims.mem_sKept _ _).mp hk).2 hb)]
    simp only [Nat.add_zero, Nat.zero_add]
    unfold GatherDims.batchCoord
    rw [dif_pos hb]
    rfl
  | ⟨1, _⟩ =>
    show GatherDims.start dBooks (ix3 h t d) idx 1 + GatherDims.batchCoord dBooks (ix3 h t d) 1 + GatherDims.offCoord dBooks (ix3 h t d) 1 = _
    rw [GatherDims.batchCoord_eq_zero _ _ _ (fun hb => absurd (List.mem_singleton.mp hb) (by decide)),
      GatherDims.offCoord_eq_zero _ _ _ (fun hk => ((GatherDims.mem_sKept _ _).mp hk).1 (List.mem_singleton.mpr rfl))]
    simp only [Nat.add_zero]
    unfold GatherDims.start
    rw [dif_pos (show (1 : Fin 3) ∈ GatherDims.startIndexMap dBooks from List.mem_singleton.mpr rfl)]
    have hsi : GatherDims.siIdx dBooks (ix3 h t d) ⟨List.idxOf (1 : Fin 3) (GatherDims.startIndexMap dBooks),
        List.idxOf_lt_length_iff.2 (List.mem_singleton.mpr rfl)⟩ = ix3 h t (0 : Fin 1) := by
      funext b'; refine Fin.ext ?_
      match b' with
      | ⟨0, _⟩ => rfl
      | ⟨1, _⟩ => rfl
      | ⟨2, _⟩ => rfl
    rw [hsi]
    rfl
  | ⟨2, _⟩ =>
    show GatherDims.start dBooks (ix3 h t d) idx 2 + GatherDims.batchCoord dBooks (ix3 h t d) 2 + GatherDims.offCoord dBooks (ix3 h t d) 2 = _
    rw [GatherDims.batchCoord_eq_zero _ _ _ (fun hb => absurd (List.mem_singleton.mp hb) (by decide))]
    have hstart : GatherDims.start dBooks (ix3 h t d) idx 2 = 0 := by
      unfold GatherDims.start
      rw [dif_neg (show ¬ (2 : Fin 3) ∈ GatherDims.startIndexMap dBooks from
        fun hm => absurd (List.mem_singleton.mp hm) (by decide))]
    rw [hstart]
    simp only [Nat.add_zero, Nat.zero_add]
    have hk : (2 : Fin 3) ∈ GatherDims.sKept dBooks :=
      (GatherDims.mem_sKept _ _).mpr ⟨fun hc => absurd (List.mem_singleton.mp hc) (by decide),
        fun hb => absurd (List.mem_singleton.mp hb) (by decide)⟩
    unfold GatherDims.offCoord
    rw [dif_pos hk]
    rfl

end Cert.ReferenceIdeal.Gathers

end
-- ==== Proof.RefValue.lean ====
/-
  The reference's result, read at an index on the evident domain: it is the embedding.
-/
import proofs.«416922_j3255585210640_2_alg».proof.Proof.RefOps
import proofs.«416922_j3255585210640_2_alg».proof.Proof.Spec
import proofs.«416922_j3255585210640_2_alg».proof.Proof.RefGathers
import Idealize.ShloMosaic.Lib.StableHlo.Predicate
import Idealize.ShloMosaic.Lib.Pipeline.Value

noncomputable section

namespace Cert.ReferenceIdeal.RefValue

open Idealize.ShloMosaic Idealize.ShloMosaic.TcCoe Idealize.ShloMosaic.StableHlo Idealize.ShloMosaic.ValueIdx Idealize.SL.Sem
open Cert.ReferenceIdeal Cert.ReferenceIdeal.Facts₀ Cert.ReferenceIdeal.RefRun Cert.Spec

variable [Facts]

section AnyFloats

variable {F : FTy → Type} [FloatOps F]

/-! ## The operations' composed term -/

/-- The code table as a column of start indices, a negative word moved up by 256. -/
def codeIdx (code : IVec S16x50257 32) : IVec S16x50257x1 32 :=
  select
    (cmpi .slt (broadcastInDim S16x50257x1 ![0, 1] bcast_S16x50257_S16x50257x1_0_1 code)
      (broadcastInDim S16x50257x1 ![] bcast_S_S16x50257x1 (constantI S_ 32 0#32)))
    (addi (broadcastInDim S16x50257x1 ![0, 1] bcast_S16x50257_S16x50257x1_0_1 code)
      (broadcastInDim S16x50257x1 ![] bcast_S_S16x50257x1 (constantI S_ 32 256#32)))
    (broadcastInDim S16x50257x1 ![0, 1] bcast_S16x50257_S16x50257x1_0_1 code)

/-- Whether each start index lies in [0, 255] read signed. -/
def codeTest (i : IVec S16x50257x1 32) : IVec S16x50257x1 1 :=
  andi (cmpi .sge i (broadcastInDim S16x50257x1 ![] bcast_S_S16x50257x1 (constantI S_ 32 0#32)))
    (cmpi .sle i (broadcastInDim S16x50257x1 ![0, 1, 2] bcast_S1x1x1_S16x50257x1_0_1_2
      (broadcastInDim S1x1x1 ![2] bcast_S1_S1x1x1_2 (constantI S1 32 255#32))))

/-- The test's conjunction over the unit axis. -/
def codeValid (i : IVec S16x50257x1 32) : IVec S16x50257 1 :=
  Host.reduce IntOp.andi (codeTest i) (constantI S_ 1 1#1) reducesTo_S16x50257x1_S16x50257_d2 h_S_

/-- The gathered rows where the test holds, the fill value elsewhere. -/
def rowsSel (valid : IVec S16x50257 1) (g : FVec F S16x50257x128 .f32) : FVec F S16x50257x128 .f32 :=
  select (broadcastInDim S16x50257x128 ![0, 1] bcast_S16x50257_S16x50257x128_0_1 valid) g
    (broadcastInDim S16x50257x128 ![] bcast_S_S16x50257x128 (constant (F := F) S_ .f32 0x7FC00000#32))

/-- Per codebook and start index, the codebook entry the index names; the fill value where the index is out of range. -/
def rowsOf (i : IVec S16x50257x1 32) (book : FVec F S16x256x128 .f32) : FVec F S16x50257x128 .f32 :=
  rowsSel (codeValid i) (Host.gather gather_S16x256x128_S16x50257x1_S16x50257x128_2_1_0_0_1_2_11128 book i)

/-- The rows regrouped as a table [50257, 2048]: row t holds the sixteen entries side by side. -/
def weightOf (r : FVec F S16x50257x128 .f32) : FVec F S50257x2048 .f32 :=
  shapeCast S50257x2048 (transpose S50257x16x128 [1, 0, 2] r transposes_S16x50257x128_S50257x16x128_1_0_2)
    shapeCasts_S50257x16x128_S50257x2048

/-- The tokens as a column of start indices, a negative word moved up by 50257. -/
def tokIdx (tok : IVec S4x4096 32) : IVec S4x4096x1 32 :=
  broadcastInDim S4x4096x1 ![0, 1] bcast_S4x4096_S4x4096x1_0_1
    (select (cmpi .slt tok (broadcastInDim S4x4096 ![] bcast_S_S4x4096 (constantI S_ 32 0#32)))
      (addi tok (broadcastInDim S4x4096 ![] bcast_S_S4x4096 (constantI S_ 32 50257#32))) tok)

/-- Whether each start index lies in [0, 50256] read signed. -/
def tokTest (i : IVec S4x4096x1 32) : IVec S4x4096x1 1 :=
  andi (cmpi .sge i (broadcastInDim S4x4096x1 ![] bcast_S_S4x4096x1 (constantI S_ 32 0#32)))
    (cmpi .sle i (broadcastInDim S4x4096x1 ![0, 1, 2] bcast_S1x1x1_S4x4096x1_0_1_2
      (broadcastInDim S1x1x1 ![2] bcast_S1_S1x1x1_2 (constantI S1 32 50256#32))))

/-- The test's conjunction over the unit axis. -/
def tokValid (i : IVec S4x4096x1 32) : IVec S4x4096 1 :=
  Host.reduce IntOp.andi (tokTest i) (constantI S_ 1 1#1) reducesTo_S4x4096x1_S4x4096_d2 h_S_

/-- The gathered rows where the test holds, the fill value elsewhere. -/
def takeSel (valid : IVec S4x4096 1) (g : FVec F S4x4096x2048 .f32) : FVec F S4x4096x2048 .f32 :=
  select (broadcastInDim S4x4096x2048 ![0, 1] bcast_S4x4096_S4x4096x2048_0_1 valid) g
    (broadcastInDim S4x4096x2048 ![] bcast_S_S4x4096x2048 (constant (F := F) S_ .f32 0x7FC00000#32))

/-- The rows of a table [50257, 2048] at the start indices; the fill value where the index is out of range. -/
def takeOf (i : IVec S4x4096x1 32) (w : FVec F S50257x2048 .f32) : FVec F S4x4096x2048 .f32 :=
  takeSel (tokValid i) (Host.gather gather_S50257x2048_S4x4096x1_S4x4096x2048_2_0_n_n_0_2_12048 w i)

/-- The operations' result as one function of the three argument arrays. -/
def refTerm (tok : IVec S4x4096 32) (code : IVec S16x50257 32) (book : FVec F S16x256x128 .f32) :
    FVec F S4x4096x2048 .f32 :=
  takeOf (tokIdx tok) (weightOf (rowsOf (codeIdx code) book))

/-! ## The operations in eight stretches, cut before and after each reduction and each gather -/

abbrev ops1 : List (HloOp τ sig (Elt F)) :=
  [ unary main_arg1 main_v0 (broadcastInDim S16x50257x1 ![0, 1] bcast_S16x50257_S16x50257x1_0_1),
    TRef.nullary main_call0.c (constantI S_ 32 0#32),
    TRef.unary main_call0.c main_call0.v0 (broadcastInDim S16x50257x1 ![] bcast_S_S16x50257x1),
    TRef.binary (.of main_v0) main_call0.v0 main_call0.v1 (cmpi .slt),
    TRef.nullary main_call0.c_0 (constantI S_ 32 256#32),
    TRef.unary main_call0.c_0 main_call0.v2 (broadcastInDim S16x50257x1 ![] bcast_S_S16x50257x1),
    TRef.binary (.of main_v0) main_call0.v2 main_call0.v3 addi,
    TRef.ternary main_call0.v1 main_call0.v3 (.of main_v0) main_call0.v4 select ]

abbrev ops2 : List (HloOp τ sig (Elt F)) :=
  [ TRef.nullary main_call0.c_1 (constantI S1 32 255#32),
    TRef.nullary main_call0.c_2 (constantI S_ 32 0#32),
    TRef.unary main_call0.c_2 main_call0.v5 (broadcastInDim S16x50257x1 ![] bcast_S_S16x50257x1),
    TRef.binary main_call0.v4 main_call0.v5 main_call0.v6 (cmpi .sge),
    TRef.unary main_call0.c_1 main_call0.v7 (broadcastInDim S1x1x1 ![2] bcast_S1_S1x1x1_2),
    TRef.unary main_call0.v7 main_call0.v8 (broadcastInDim S16x50257x1 ![0, 1, 2] bcast_S1x1x1_S16x50257x1_0_1_2),
    TRef.binary main_call0.v4 main_call0.v8 main_call0.v9 (cmpi .sle),
    TRef.binary main_call0.v6 main_call0.v9 main_call0.v10 andi ]

abbrev ops3 : List (HloOp τ sig (Elt F)) :=
  [ TRef.nullary main_call0.c_3 (constantI S_ 1 1#1),
    TRef.binary main_call0.v10 main_call0.c_3 main_call0.v11 (fun x v => Host.reduce IntOp.andi x v reducesTo_S16x50257x1_S16x50257_d2 h_S_),
    TRef.binary (.of main_arg2) main_call0.v4 main_call0.v12 (fun x i => Host.gather gather_S16x256x128_S16x50257x1_S16x50257x128_2_1_0_0_1_2_11128 x i) ]

abbrev ops4 : List (HloOp τ sig (Elt F)) :=
  [ TRef.unary main_call0.v11 main_call0.v13 (broadcastInDim S16x50257x128 ![0, 1] bcast_S16x50257_S16x50257x128_0_1),
    TRef.nullary main_call0.cst (constant S_ .f32 0x7FC00000#32),
    TRef.unary main_call0.cst main_call0.v14 (broadcastInDim S16x50257x128 ![] bcast_S_S16x50257x128),
    TRef.ternary main_call0.v13 main_call0.v12 main_call0.v14 main_call0.v15 select,
    unary main_v1 main_v2 (transpose S50257x16x128 [1, 0, 2] · transposes_S16x50257x128_S50257x16x128_1_0_2),
    reshape main_v2 main_v3 rfl shapeCasts_S50257x16x128_S50257x2048 ]

abbrev ops5 : List (HloOp τ sig (Elt F)) :=
  [ TRef.nullary main_call1.c (constantI S_ 32 0#32),
    TRef.unary main_call1.c main_call1.v0 (broadcastInDim S4x4096 ![] bcast_S_S4x4096),
    TRef.binary (.of main_arg0) main_call1.v0 main_call1.v1 (cmpi .slt),
    TRef.nullary main_call1.c_0 (constantI S_ 32 50257#32),
    TRef.unary main_call1.c_0 main_call1.v2 (broadcastInDim S4x4096 ![] bcast_S_S4x4096),
    TRef.binary (.of main_arg0) main_call1.v2 main_call1.v3 addi,
    TRef.ternary main_call1.v1 main_call1.v3 (.of main_arg0) main_call1.call0.v0 select,
    TRef.unary main_call1.call0.v0 main_call1.v5 (broadcastInDim S4x4096x1 ![0, 1] bcast_S4x4096_S4x4096x1_0_1) ]

abbrev ops6 : List (HloOp τ sig (Elt F)) :=
  [ TRef.nullary main_call1.c_1 (constantI S1 32 50256#32),
    TRef.nullary main_call1.c_2 (constantI S_ 32 0#32),
    TRef.unary main_call1.c_2 main_call1.v6 (broadcastInDim S4x4096x1 ![] bcast_S_S4x4096x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4x4096x1 ![0, 1, 2] bcast_S1x1x1_S4x4096x1_0_1_2),
    TRef.binary main_call1.v5 main_call1.v9 main_call1.v10 (cmpi .sle),
    TRef.binary main_call1.v7 main_call1.v10 main_call1.v11 andi ]

abbrev ops7 : List (HloOp τ sig (Elt F)) :=
  [ TRef.nullary main_call1.c_3 (constantI S_ 1 1#1),
    TRef.binary main_call1.v11 main_call1.c_3 main_call1.v12 (fun x v => Host.reduce IntOp.andi x v reducesTo_S4x4096x1_S4x4096_d2 h_S_),
    TRef.binary (.of main_v3) main_call1.v5 main_call1.v13 (fun x i => Host.gather gather_S50257x2048_S4x4096x1_S4x4096x2048_2_0_n_n_0_2_12048 x i) ]

abbrev ops8 : List (HloOp τ sig (Elt F)) :=
  [ TRef.unary main_call1.v12 main_call1.v14 (broadcastInDim S4x4096x2048 ![0, 1] bcast_S4x4096_S4x4096x2048_0_1),
    TRef.nullary main_call1.cst (constant S_ .f32 0x7FC00000#32),
    TRef.unary main_call1.cst main_call1.v15 (broadcastInDim S4x4096x2048 ![] bcast_S_S4x4096x2048),
    TRef.ternary main_call1.v14 main_call1.v13 main_call1.v15 main_call1.v16 select ]

theorem ops_eq : (ops : List (HloOp τ sig (Elt F)))
    = ops1 ++ (ops2 ++ (ops3 ++ (ops4 ++ (ops5 ++ (ops6 ++ (ops7 ++ ops8)))))) := rfl

/-! ## Each stretch read at the buffers the later ones use: the fold unrolled, each operation's result at its own buffer, every other buffer untouched -/

attribute [local irreducible] Host.reduce Host.gather in
set_option maxRecDepth 8192 in
theorem s1_idx (W : Valuation τ sig (Elt F)) :
    after (ops1 (F := F)) W (main_call0_v4 : DevRef τ sig) = codeIdx (W (main_arg1 : DevRef τ sig)) := by
  simp only [after_cons, after_nil]
  rfl

attribute [local irreducible] Host.reduce Host.gather in
set_option maxRecDepth 8192 in
theorem s1_arg0 (W : Valuation τ sig (Elt F)) :
    after (ops1 (F := F)) W (main_arg0 : DevRef τ sig) = W (main_arg0 : DevRef τ sig) := by
  simp only [after_cons, after_nil]
  rfl

attribute [local irreducible] Host.reduce Host.gather in
set_option maxRecDepth 8192 in
theorem s1_arg2 (W : Valuation τ sig (Elt F)) :
    after (ops1 (F := F)) W (main_arg2 : DevRef τ sig) = W (main_arg2 : DevRef τ sig) := by
  simp only [after_cons, after_nil]
  rfl

attribute [local irreducible] Host.reduce Host.gather in
set_option maxRecDepth 8192 in
theorem s2_test (W : Valuation τ sig (Elt F)) :
    after (ops2 (F := F)) W (main_call0_v10 : DevRef τ sig) = codeTest (W (main_call0_v4 : DevRef τ sig)) := by
  simp only [after_cons, after_nil]
  rfl

attribute [local irreducible] Host.reduce Host.gather in
set_option maxRecDepth 8192 in
theorem s2_idx (W : Valuation τ sig (Elt F)) :
    after (ops2 (F := F)) W (main_call0_v4 : DevRef τ sig) = W (main_call0_v4 : DevRef τ sig) := by
  simp only [after_cons, after_nil]
  rfl

attribute [local irreducible] Host.reduce Host.gather in
set_option maxRecDepth 8192 in
theorem s2_arg0 (W : Valuation τ sig (Elt F)) :
    after (ops2 (F := F)) W (main_arg0 : DevRef τ sig) = W (main_arg0 : DevRef τ sig) := by
  simp only [after_cons, after_nil]
  rfl

attribute [local irreducible] Host.reduce Host.gather in
set_option maxRecDepth 8192 in
theorem s2_arg2 (W : Valuation τ sig (Elt F)) :
    after (ops2 (F := F)) W (main_arg2 : DevRef τ sig) = W (main_arg2 : DevRef τ sig) := by
  simp only [after_cons, after_nil]
  rfl

attribute [local irreducible] Host.reduce Host.gather in
set_option maxRecDepth 8192 in
theorem s3_valid (W : Valuation τ sig (Elt F)) :
    after (ops3 (F := F)) W (main_call0_v11 : DevRef τ sig) = Host.reduce IntOp.andi (W (main_call0_v10 : DevRef τ sig)) (constantI S_ 1 1#1) reducesTo_S16x50257x1_S16x50257_d2 h_S_ := by
  simp only [after_cons, after_nil]
  rfl

attribute [local irreducible] Host.reduce Host.gather in
set_option maxRecDepth 8192 in
theorem s3_rows (W : Valuation τ sig (Elt F)) :
    after (ops3 (F := F)) W (main_call0_v12 : DevRef τ sig) = Host.gather gather_S16x256x128_S16x50257x1_S16x50257x128_2_1_0_0_1_2_11128 (W (main_arg2 : DevRef τ sig)) (W (main_call0_v4 : DevRef τ sig)) := by
  simp only [after_cons, after_nil]
  rfl

attribute [local irreducible] Host.reduce Host.gather in
set_option maxRecDepth 8192 in
theorem s3_arg0 (W : Valuation τ sig (Elt F)) :
    after (ops3 (F := F)) W (main_arg0 : DevRef τ sig) = W (main_arg0 : DevRef τ sig) := by
  simp only [after_cons, after_nil]
  rfl

attribute [local irreducible] Host.reduce Host.gather in
set_option maxRecDepth 8192 in
theorem s4_table (W : Valuation τ sig (Elt F)) :
    after (ops4 (F := F)) W (main_v3 : DevRef τ sig) = weightOf (rowsSel (W (main_call0_v11 : DevRef τ sig)) (W (main_call0_v12 : DevRef τ sig))) := by
  simp only [after_cons, after_nil]
  rfl

attribute [local irreducible] Host.reduce Host.gather in
set_option maxRecDepth 8192 in
theorem s4_arg0 (W : Valuation τ sig (Elt F)) :
    after (ops4 (F := F)) W (main_arg0 : DevRef τ sig) = W (main_arg0 : DevRef τ sig) := by
  simp only [after_cons, after_nil]
  rfl

attribute [local irreducible] Host.reduce Host.gather in
set_option maxRecDepth 8192 in
theorem s5_idx (W : Valuation τ sig (Elt F)) :
    after (ops5 (F := F)) W (main_call1_v5 : DevRef τ sig) = tokIdx (W (main_arg0 : DevRef τ sig)) := by
  simp only [after_cons, after_nil]
  rfl

attribute [local irreducible] Host.reduce Host.gather in
set_option maxRecDepth 8192 in
theorem s5_table (W : Valuation τ sig (Elt F)) :
    after (ops5 (F := F)) W (main_v3 : DevRef τ sig) = W (main_v3 : DevRef τ sig) := by
  simp only [after_cons, after_nil]
  rfl

attribute [local irreducible] Host.reduce Host.gather in
set_option maxRecDepth 8192 in
theorem s6_test (W : Valuation τ sig (Elt F)) :
    after (ops6 (F := F)) W (main_call1_v11 : DevRef τ sig) = tokTest (W (main_call1_v5 : DevRef τ sig)) := by
  simp only [after_cons, after_nil]
  rfl

attribute [local irreducible] Host.reduce Host.gather in
set_option maxRecDepth 8192 in
theorem s6_idx (W : Valuation τ sig (Elt F)) :
    after (ops6 (F := F)) W (main_call1_v5 : DevRef τ sig) = W (main_call1_v5 : DevRef τ sig) := by
  simp only [after_cons, after_nil]
  rfl

attribute [local irreducible] Host.reduce Host.gather in
set_option maxRecDepth 8192 in
theorem s6_table (W : Valuation τ sig (Elt F)) :
    after (ops6 (F := F)) W (main_v3 : DevRef τ sig) = W (main_v3 : DevRef τ sig) := by
  simp only [after_cons, after_nil]
  rfl

attribute [local irreducible] Host.reduce Host.gather in
set_option maxRecDepth 8192 in
theorem s7_valid (W : Valuation τ sig (Elt F)) :
    after (ops7 (F := F)) W (main_call1_v12 : DevRef τ sig) = Host.reduce IntOp.andi (W (main_call1_v11 : DevRef τ sig)) (constantI S_ 1 1#1) reducesTo_S4x4096x1_S4x4096_d2 h_S_ := by
  simp only [after_cons, after_nil]
  rfl

attribute [local irreducible] Host.reduce Host.gather in
set_option maxRecDepth 8192 in
theorem s7_rows (W : Valuation τ sig (Elt F)) :
    after (ops7 (F := F)) W (main_call1_v13 : DevRef τ sig) = Host.gather gather_S50257x2048_S4x4096x1_S4x4096x2048_2_0_n_n_0_2_12048 (W (main_v3 : DevRef τ sig)) (W (main_call1_v5 : DevRef τ sig)) := by
  simp only [after_cons, after_nil]
  rfl

attribute [local irreducible] Host.reduce Host.gather in
set_option maxRecDepth 8192 in
theorem s8_take (W : Valuation τ sig (Elt F)) :
    after (ops8 (F := F)) W (main_v4 : DevRef τ sig) = takeSel (W (main_call1_v12 : DevRef τ sig)) (W (main_call1_v13 : DevRef τ sig)) := by
  simp only [after_cons, after_nil]
  rfl

/-- The fold of all the operations at the result buffer is the composed term of the arguments' contents. -/
theorem after_eq_refTerm (V : Valuation τ sig (Elt F)) :
    after (ops (F := F)) V (main_v4 : DevRef τ sig)
      = refTerm (V (main_arg0 : DevRef τ sig)) (V (main_arg1 : DevRef τ sig)) (V (main_arg2 : DevRef τ sig)) := by
  rw [ops_eq, StableHlo.after_append, StableHlo.after_append, StableHlo.after_append, StableHlo.after_append,
    StableHlo.after_append, StableHlo.after_append, StableHlo.after_append,
    s8_take, s7_valid, s7_rows, s6_test, s6_idx, s6_table, s5_idx, s5_table, s4_table, s4_arg0, s3_valid, s3_rows, s3_arg0,
    s2_test, s2_idx, s2_arg0, s2_arg2, s1_idx, s1_arg0, s1_arg2]
  rfl

/-! ## Words below 2³¹: signed compares and the signed reading are the unsigned ones -/

section Words
open Idealize.ShloMosaic.StableHlo.Predicate

/-- A small word is not negative: the wrap is not taken. -/
theorem wrap_eq (x k : BitVec 32) (hx : x.toNat < 2 ^ 31) :
    Scalar.select (IntOp.cmpi .slt x 0#32) (IntOp.addi x k) x = x := by
  have h0 : IntOp.cmpi .slt x 0#32 = 0#1 :=
    eq_zero_of_ne_one fun h => absurd ((slt_iff_toNat hx (by decide)).mp h) (by simp)
  rw [h0, select_zero]

/-- A small word at most a small bound passes the range test. -/
theorem inRange_eq (x hi : BitVec 32) (hhi : hi.toNat < 2 ^ 31) (hx : x.toNat ≤ hi.toNat) :
    IntOp.andi (IntOp.cmpi .sge x 0#32) (IntOp.cmpi .sle x hi) = 1#1 := by
  rw [(sge_iff_toNat (by omega) (by decide)).mpr (by simp), (sle_iff_toNat (by omega) hhi).mpr hx]
  decide

/-- A small word read signed, clamped to a bound it does not exceed, is its value. -/
theorem clamp_eq (x : BitVec 32) (n : Nat) (hn : n < 2 ^ 31) (hx : x.toNat ≤ n) : min x.toInt.toNat n = x.toNat := by
  rw [toInt_eq_toNat_of_lt (by omega), Int.toNat_natCast]
  exact Nat.min_eq_left hx

end Words

/-! ## A conjunction over an axis, all of whose terms are 1 -/

theorem foldl_andi_one {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a List.mem_cons_self, show IntOp.andi 1#1 1#1 = 1#1 from by decide]
    exact ih fun n hn => h n (List.mem_cons_of_mem _ hn)

theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_one x _ fun n _ => hx n

/-! ## A rank-2 array laid along the first two axes of a rank-3 one -/

theorem bcast01_apply {α : Type} {n0 n1 n2 : Nat}
    (h : (⟨2, ![n0, n1]⟩ : Shape).BroadcastsInDim ⟨3, ![n0, n1, n2]⟩ ![0, 1])
    (v : (⟨2, ![n0, n1]⟩ : Shape).Idx → α) (a : Fin n0) (b : Fin n1) (c : Fin n2) :
    broadcastInDim ⟨3, ![n0, n1, n2]⟩ ![0, 1] h v (ix3 a b c) = v (ix2 a b) := by
  simp only [broadcastInDim]
  congr 1
  funext k
  match k with
  | ⟨0, _⟩ =>
    apply Fin.ext
    have ha := a.isLt
    split
    · next h1 => change n0 = 1 at h1; show (0 : Nat) = a.val; omega
    · rfl
  | ⟨1, _⟩ =>
    apply Fin.ext
    have hb := b.isLt
    split
    · next h1 => change n1 = 1 at h1; show (0 : Nat) = b.val; omega
    · rfl

/-! ## The start indices and the range tests on the domain -/

/-- A code below 256 is its own start index. -/
theorem codeIdx_apply (code : IVec S16x50257 32) (hc : ∀ j, (code j).toNat < 256) (h : Fin 16) (t : Fin 50257) (u : Fin 1) :
    codeIdx code (ix3 h t u) = code (ix2 h t) := by
  have hB : broadcastInDim S16x50257x1 ![0, 1] bcast_S16x50257_S16x50257x1_0_1 code (ix3 h t u) = code (ix2 h t) :=
    bcast01_apply _ code h t u
  show Scalar.select
      (IntOp.cmpi .slt (broadcastInDim S16x50257x1 ![0, 1] bcast_S16x50257_S16x50257x1_0_1 code (ix3 h t u)) 0#32)
      (IntOp.addi (broadcastInDim S16x50257x1 ![0, 1] bcast_S16x50257_S16x50257x1_0_1 code (ix3 h t u)) 256#32)
      (broadcastInDim S16x50257x1 ![0, 1] bcast_S16x50257_S16x50257x1_0_1 code (ix3 h t u)) = _
  rw [hB]
  exact wrap_eq _ _ (by have := hc (ix2 h t); omega)

theorem codeIdx_lt (code : IVec S16x50257 32) (hc : ∀ j, (code j).toNat < 256) (j : S16x50257x1.Idx) :
    (codeIdx code j).toNat < 256 := by
  obtain ⟨h, t, u, rfl⟩ : ∃ h t u, j = ix3 h t u := ⟨j 0, j 1, j 2, eq_ix3 j⟩
  rw [codeIdx_apply code hc]
  exact hc _

/-- Start indices below 256 all pass the range test. -/
theorem codeValid_apply (i : IVec S16x50257x1 32) (hi : ∀ j, (i j).toNat < 256) (j : S16x50257.Idx) :
    codeValid i j = 1#1 := by
  unfold codeValid
  refine reduce_andi_one _ _ _ _ rfl (fun k => ?_) j
  exact inRange_eq (i k) 255#32 (by decide) (by have := hi k; show (i k).toNat ≤ 255; omega)

/-- A token below 50257 is its own start index. -/
theorem tokIdx_apply (tok : IVec S4x4096 32) (ht : ∀ i, (tok i).toNat < 50257) (b : Fin 4) (s : Fin 4096) (u : Fin 1) :
    tokIdx tok (ix3 b s u) = tok (ix2 b s) := by
  unfold tokIdx
  refine (bcast01_apply _ _ b s u).trans ?_
  exact wrap_eq _ _ (by have := ht (ix2 b s); omega)

theorem tokIdx_lt (tok : IVec S4x4096 32) (ht : ∀ i, (tok i).toNat < 50257) (j : S4x4096x1.Idx) :
    (tokIdx tok j).toNat < 50257 := by
  obtain ⟨b, s, u, rfl⟩ : ∃ b s u, j = ix3 b s u := ⟨j 0, j 1, j 2, eq_ix3 j⟩
  rw [tokIdx_apply tok ht]
  exact ht _

/-- Start indices below 50257 all pass the range test. -/
theorem tokValid_apply (i : IVec S4x4096x1 32) (hi : ∀ j, (i j).toNat < 50257) (j : S4x4096.Idx) :
    tokValid i j = 1#1 := by
  unfold tokValid
  refine reduce_andi_one _ _ _ _ rfl (fun k => ?_) j
  exact inRange_eq (i k) 50256#32 (by decide) (by have := hi k; show (i k).toNat ≤ 50256; omega)

/-! ## The weight table and the take, read at an index -/

/-- Codebook h's row t: the entry the code names, lane by lane. -/
theorem rows_apply (code : IVec S16x50257 32) (book : FVec F S16x256x128 .f32) (hc : ∀ j, (code j).toNat < 256)
    (h : Fin 16) (t : Fin 50257) (d : Fin 128) :
    rowsOf (codeIdx code) book (ix3 h t d) = book (ix3 h (codeAt code h t) d) := by
  have hv : broadcastInDim S16x50257x128 ![0, 1] bcast_S16x50257_S16x50257x128_0_1 (codeValid (codeIdx code)) (ix3 h t d)
      = 1#1 :=
    (bcast01_apply _ _ h t d).trans (codeValid_apply _ (codeIdx_lt code hc) _)
  unfold rowsOf rowsSel
  rw [select_apply, hv, select_one, Gathers.books_gather_apply]
  refine congrArg (fun e => book (ix3 h e d)) (Fin.ext ?_)
  show min (codeIdx code (ix3 h t (0 : Fin 1))).toInt.toNat 255 = (code (ix2 h t)).toNat % 256
  rw [codeIdx_apply code hc, clamp_eq _ 255 (by norm_num) (by have := hc (ix2 h t); omega)]
  exact (Nat.mod_eq_of_lt (hc _)).symm

/-- Row t of the weight table, column col: codebook col / 128, lane col % 128. -/
theorem weight_apply (code : IVec S16x50257 32) (book : FVec F S16x256x128 .f32) (hc : ∀ j, (code j).toNat < 256)
    (t : Fin 50257) (col : Fin 2048) :
    weightOf (rowsOf (codeIdx code) book) (ix2 t col) = book (ix3 (headOf col) (codeAt code (headOf col) t) (laneOf col)) := by
  unfold weightOf
  refine (shapeCast_apply _ shapeCasts_S50257x16x128_S50257x2048 (ix2 t col) (ix3 t (headOf col) (laneOf col)) ?_).trans ?_
  · rw [Shape.rowMajor_val_three, Shape.rowMajor_val_two]
    show (t.val * 16 + col.val / 128) * 128 + col.val % 128 = t.val * 2048 + col.val
    omega
  refine (transpose_apply [1, 0, 2] _ transposes_S16x50257x128_S50257x16x128_1_0_2 (ix3 t (headOf col) (laneOf col))
    (ix3 (headOf col) t (laneOf col)) (fun c => match c with | ⟨0, _⟩ => rfl | ⟨1, _⟩ => rfl | ⟨2, _⟩ => rfl)).trans ?_
  exact rows_apply code book hc _ _ _

/-- The take at (b, s, col): the table's row at the token. -/
theorem take_apply (tok : IVec S4x4096 32) (w : FVec F S50257x2048 .f32) (ht : ∀ i, (tok i).toNat < 50257)
    (b : Fin 4) (s : Fin 4096) (col : Fin 2048) :
    takeOf (tokIdx tok) w (ix3 b s col) = w (ix2 (tokenAt tok b s) col) := by
  have hv : broadcastInDim S4x4096x2048 ![0, 1] bcast_S4x4096_S4x4096x2048_0_1 (tokValid (tokIdx tok)) (ix3 b s col)
      = 1#1 :=
    (bcast01_apply _ _ b s col).trans (tokValid_apply _ (tokIdx_lt tok ht) _)
  unfold takeOf takeSel
  rw [select_apply, hv, select_one, Gathers.rows_gather_apply]
  refine congrArg (fun e => w (ix2 e col)) (Fin.ext ?_)
  show min (tokIdx tok (ix3 b s (0 : Fin 1))).toInt.toNat 50256 = (tok (ix2 b s)).toNat % 50257
  rw [tokIdx_apply tok ht, clamp_eq _ 50256 (by norm_num) (by have := ht (ix2 b s); omega)]
  exact (Nat.mod_eq_of_lt (ht _)).symm

/-- On the domain the composed term is the embedding, entry by entry. -/
theorem refTerm_apply (tok : IVec S4x4096 32) (code : IVec S16x50257 32) (book : FVec F S16x256x128 .f32)
    (hin : InRange tok code) (b : Fin 4) (s : Fin 4096) (col : Fin 2048) :
    refTerm tok code book (ix3 b s col) = embedAt tok code book b s col := by
  unfold refTerm
  rw [take_apply tok _ hin.1, weight_apply code book hin.2]
  rfl

end AnyFloats

/-! ## The four facts about the reference's run -/

/-- With tokens and codes in range no fill value is selected and no index wraps: the result is the embedding. -/
theorem result_eq (V : Valuation τ sig (Elt Ideal))
    (hin : InRange (V (main_arg0 : DevRef τ sig)) (V (main_arg1 : DevRef τ sig))) :
    after (ops (F := Ideal)) V (main_v4 : DevRef τ sig)
      = embed (V (main_arg0 : DevRef τ sig)) (V (main_arg1 : DevRef τ sig)) (V (main_arg2 : DevRef τ sig)) := by
  refine (after_eq_refTerm V).trans ?_
  funext j
  obtain ⟨b, s, col, rfl⟩ : ∃ b s col, j = ix3 b s col := ⟨j 0, j 1, j 2, eq_ix3 j⟩
  exact (refTerm_apply _ _ _ hin b s col).trans (embed_ix3 _ _ _ b s col).symm

attribute [local irreducible] Host.reduce Host.gather in
set_option maxRecDepth 8192 in
/-- The operations write none of the argument arrays. -/
theorem arg0_eq (V : Valuation τ sig (Elt Ideal)) :
    after (ops (F := Ideal)) V (main_arg0 : DevRef τ sig) = V (main_arg0 : DevRef τ sig) := by
  simp only [after_cons, after_nil]
  rfl
attribute [local irreducible] Host.reduce Host.gather in
set_option maxRecDepth 8192 in
theorem arg1_eq (V : Valuation τ sig (Elt Ideal)) :
    after (ops (F := Ideal)) V (main_arg1 : DevRef τ sig) = V (main_arg1 : DevRef τ sig) := by
  simp only [after_cons, after_nil]
  rfl
attribute [local irreducible] Host.reduce Host.gather in
set_option maxRecDepth 8192 in
theorem arg2_eq (V : Valuation τ sig (Elt Ideal)) :
    after (ops (F := Ideal)) V (main_arg2 : DevRef τ sig) = V (main_arg2 : DevRef τ sig) := by
  simp only [after_cons, after_nil]
  rfl

end Cert.ReferenceIdeal.RefValue

end
-- ==== Proof.lean ====
/-
  The certificate of the fused codebook embedding against its jnp reference, over the extended reals.

  Both programs compute, at position (b, s) and column h·128 + d, the entry book[h, code[h, tok[b, s]], d]: the
  reference by gathering every vocabulary row's sixteen codebook vectors into a weight table and taking the tokens'
  rows of it, the kernel by gathering the tokens' codes on the host and, in one pallas_call over sixteen blocks of
  1024 tokens, multiplying each token's one-hot code row against the codebook (every product but one is 0 · x = 0,
  also at an infinite x) and laying the sixteen products side by side. The two agree where every token names a row
  of the code table and every code an entry of a codebook, the evident domain of the indices, which the precondition
  states; outside it the reference answers its fill value and the kernel zero.

  The three frames: the two kernel programs' are the generated frame certificates; the reference has no kernel, and
  its frame is its run as one line of host operations read at the arguments. The idealization rewrote nothing. The
  algebraic claim joins the kernel program's run, read as the embedding, with the reference's run, read as the
  embedding.
-/
import proofs.«416922_j3255585210640_2_alg».proof.Defs
import proofs.«416922_j3255585210640_2_alg».proof.Proof.Gen.Kernel
import proofs.«416922_j3255585210640_2_alg».proof.Proof.Gen.Kernel.Skeleton
import proofs.«416922_j3255585210640_2_alg».proof.Proof.Gen.Kernel.Launch
import proofs.«416922_j3255585210640_2_alg».proof.Proof.Gen.Kernel.Points
import proofs.«416922_j3255585210640_2_alg».proof.Proof.Gen.Kernel.Frame
import proofs.«416922_j3255585210640_2_alg».proof.Proof.Gen.KernelIdeal
import proofs.«416922_j3255585210640_2_alg».proof.Proof.Gen.KernelIdeal.Skeleton
import proofs.«416922_j3255585210640_2_alg».proof.Proof.Gen.KernelIdeal.Launch
import proofs.«416922_j3255585210640_2_alg».proof.Proof.Gen.KernelIdeal.Points
import proofs.«416922_j3255585210640_2_alg».proof.Proof.Gen.KernelIdeal.Frame
import proofs.«416922_j3255585210640_2_alg».proof.Proof.Gen.ReferenceIdeal
import proofs.«416922_j3255585210640_2_alg».proof.Proof.Gen.Pre_finite_inputs
import proofs.«416922_j3255585210640_2_alg».proof.Proof.PreFacts
import proofs.«416922_j3255585210640_2_alg».proof.Proof.KerValue
import proofs.«416922_j3255585210640_2_alg».proof.Proof.RefRun
import proofs.«416922_j3255585210640_2_alg».proof.Proof.RefValue
import Idealize.ShloMosaic.Adequacy
import Idealize.ShloMosaic.Init

noncomputable section

namespace Cert.Proof

open Idealize.ShloMosaic Idealize.ShloMosaic.TcCoe Idealize.SL.Sem
open Cert.Spec

/-- The word-level kernel program's frame is its generated frame certificate. -/
theorem frame_k : Cert.frame_Kernel := fun m ρ _ => Cert.Kernel.Gen.frame m ρ

/-- So is the idealized kernel program's. -/
theorem frame_ki : Cert.frame_KernelIdeal := fun m ρ _ => Cert.KernelIdeal.Gen.frame m ρ

/-- The reference's run is its host operations' fold; none of them writes an argument. -/
theorem frame_ri : Cert.frame_ReferenceIdeal := by
  intro m ρ _
  exact (θ_run Cert.ReferenceIdeal.defs _ _).mono
    (fun _ h c => ⟨(h c Cert.ReferenceIdeal.main_arg0).trans (Cert.ReferenceIdeal.RefValue.arg0_eq _),
      (h c Cert.ReferenceIdeal.main_arg1).trans (Cert.ReferenceIdeal.RefValue.arg1_eq _),
      (h c Cert.ReferenceIdeal.main_arg2).trans (Cert.ReferenceIdeal.RefValue.arg2_eq _)⟩)
    (Cert.ReferenceIdeal.RefRun.run_main (F := Ideal) m ρ)

/-- The idealization rewrote no operation. -/
theorem preserves : Cert.preserves_Kernel_KernelIdeal := trivial

/-- Both runs end at the embedding of the (agreeing) arguments: the precondition puts tokens and codes in range, the
    kernel program's run is read by its row blocks, the reference's by its two gathers. -/
theorem algebraic : Cert.algebraic_KernelIdeal_ReferenceIdeal := by
  intro m ρ m' ρ' hpre hagree
  have hin : ∀ c : Dev Cert.KernelIdeal.nD,
      InRange (Cert.KernelIdeal.Codes.tokArr m c) (Cert.KernelIdeal.Codes.codeArr m c) :=
    fun c => Cert.PreFacts.inRange_of_pre _ _ _ (hpre c)
  refine ⟨fun c => embed (Cert.KernelIdeal.Codes.tokArr m c) (Cert.KernelIdeal.Codes.codeArr m c)
      (m ((c.tc : Thread Cert.KernelIdeal.nD Cert.KernelIdeal.τ).loc Cert.KernelIdeal.main_arg2)),
    Cert.KernelIdeal.Rows.run m ρ hin, ?_⟩
  refine (θ_run Cert.ReferenceIdeal.defs _ _).mono
    (fun _ h c => ⟨((h c Cert.ReferenceIdeal.main_v4).trans (Cert.ReferenceIdeal.RefValue.result_eq _ ?_)).trans ?_,
      (h c Cert.ReferenceIdeal.main_arg0).trans (Cert.ReferenceIdeal.RefValue.arg0_eq _),
      (h c Cert.ReferenceIdeal.main_arg1).trans (Cert.ReferenceIdeal.RefValue.arg1_eq _),
      (h c Cert.ReferenceIdeal.main_arg2).trans (Cert.ReferenceIdeal.RefValue.arg2_eq _)⟩)
    (Cert.ReferenceIdeal.RefRun.run_main (F := Ideal) m' ρ')
  · show InRange (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
    rw [(hagree c).1, (hagree c).2.1]
    exact hin c
  · show embed (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = _
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
